-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_arg7)) (v2 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg7) = v1 c
          ∧ r.2.mem ((c.tc : Thread Cert.KernelIdeal.nD Cert.KernelIdeal.τ).loc Cert.KernelIdeal.main_v32) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg7) = v1 c
          ∧ r.2.mem ((c.tc : Thread Cert.ReferenceIdeal.nD Cert.ReferenceIdeal.τ).loc Cert.ReferenceIdeal.main_v56) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S16384x14 : Shape := ⟨2, ![16384, 14]⟩
abbrev S4096x4096 : Shape := ⟨2, ![4096, 4096]⟩
abbrev S4096 : Shape := ⟨1, ![4096]⟩
abbrev S14x4096 : Shape := ⟨2, ![14, 4096]⟩
abbrev S14x14 : Shape := ⟨2, ![14, 14]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S14x4096 : S_.BroadcastsInDim S14x4096 (![] : Fin 0 → Fin S14x4096.rank)
  reducesTo_S14x4096_S_d0_1 : S14x4096.ReducesTo [0, 1] S_
  bcast_S_S14x14 : S_.BroadcastsInDim S14x14 (![] : Fin 0 → Fin S14x14.rank)
  reducesTo_S14x14_S_d0_1 : S14x14.ReducesTo [0, 1] S_

variable [Facts]

def fn_part2 {F : FTy → Type} [FloatOps F] (main_arg8 : FVec F S14x14 .f32) (main_v33 : IVec S_ 1) : IVec S_ 1 :=
  let main_v34 : FVec F S14x14 .f32 := Host.absf main_arg8
  let main_cst_12 : FVec F S_ .f32 := constant S_ .f32 0x7F800000#32
  let main_v35 : FVec F S14x14 .f32 := broadcastInDim S14x14 ![] bcast_S_S14x14 main_cst_12
  let main_v36 : IVec S14x14 1 := cmpf .olt main_v34 main_v35
  let main_c_13 : IVec S_ 1 := constantI S_ 1 1#1
  let main_v37 : IVec S_ 1 := (fun x v => Host.reduce IntOp.andi x v reducesTo_S14x14_S_d0_1 h_S_) main_v36 main_c_13
  let main_v38 : IVec S_ 1 := andi main_v33 main_v37
  main_v38

def fn_part1 {F : FTy → Type} [FloatOps F] (main_arg5 : FVec F S4096x4096 .f32) (main_arg6 : FVec F S4096 .f32) (main_arg7 : FVec F S14x4096 .f32) (main_arg8 : FVec F S14x14 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x4096 .f32 := Host.absf main_arg5
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096 .f32 := Host.absf main_arg6
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S14x4096 .f32 := Host.absf main_arg7
  let main_cst_10 : FVec F S_ .f32 := constant S_ .f32 0x7F800000#32
  let main_v30 : FVec F S14x4096 .f32 := broadcastInDim S14x4096 ![] bcast_S_S14x4096 main_cst_10
  let main_v31 : IVec S14x4096 1 := cmpf .olt main_v29 main_v30
  let main_c_11 : IVec S_ 1 := constantI S_ 1 1#1
  let main_v32 : IVec S_ 1 := (fun x v => Host.reduce IntOp.andi x v reducesTo_S14x4096_S_d0_1 h_S_) main_v31 main_c_11
  let main_v33 : IVec S_ 1 := andi main_v28 main_v32
  fn_part2 (F := F) main_arg8 main_v33

def fn {F : FTy → Type} [FloatOps F] (main_arg0 : FVec F S16384x4096 .f32) (main_arg1 : FVec F S16384x4096 .f32) (main_arg2 : IVec S16384x14 32) (main_arg3 : FVec F S4096x4096 .f32) (main_arg4 : FVec F S4096 .f32) (main_arg5 : FVec F S4096x4096 .f32) (main_arg6 : FVec F S4096 .f32) (main_arg7 : FVec F S14x4096 .f32) (main_arg8 : FVec F S14x14 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S4096x4096 .f32 := Host.absf main_arg3
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg5 main_arg6 main_arg7 main_arg8 main_v13 main_v16
-- ==== Kernel.lean ====
abbrev S16384x4096 : Shape := ⟨2, ![16384, 4096]⟩
abbrev S16384x14 : Shape := ⟨2, ![16384, 14]⟩
abbrev S4096x4096 : Shape := ⟨2, ![4096, 4096]⟩
abbrev S4096 : Shape := ⟨1, ![4096]⟩
abbrev S14x4096 : Shape := ⟨2, ![14, 4096]⟩
abbrev S14x14 : Shape := ⟨2, ![14, 14]⟩
abbrev S1x4096 : Shape := ⟨2, ![1, 4096]⟩
abbrev S_ : Shape := ⟨0, ![]⟩
abbrev S14 : Shape := ⟨1, ![14]⟩
abbrev S14x1 : Shape := ⟨2, ![14, 1]⟩
abbrev S4096x14 : Shape := ⟨2, ![4096, 14]⟩
abbrev S64x4096 : Shape := ⟨2, ![64, 4096]⟩
abbrev S64x14 : Shape := ⟨2, ![64, 14]⟩
abbrev S64 : Shape := ⟨1, ![64]⟩
abbrev S64x1 : Shape := ⟨2, ![64, 1]⟩
abbrev S14x16384 : Shape := ⟨2, ![14, 16384]⟩

abbrev nBuf : Space → Nat
  | .hbm => 49
  | .vmem => 18
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S16384x14, .i32⟩
  | .hbm, ⟨3, _⟩ => ⟨S4096x4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S14x4096, .f32⟩
  | .hbm, ⟨8, _⟩ => ⟨S14x14, .f32⟩
  | .hbm, ⟨9, _⟩ => ⟨S4096x4096, .f32⟩
  | .hbm, ⟨10, _⟩ => ⟨S4096x4096, .bf16⟩
  | .hbm, ⟨11, _⟩ => ⟨S4096x4096, .f32⟩
  | .hbm, ⟨12, _⟩ => ⟨S4096x4096, .bf16⟩
  | .hbm, ⟨13, _⟩ => ⟨S1x4096, .f32⟩
  | .hbm, ⟨14, _⟩ => ⟨S1x4096, .f32⟩
  | .hbm, ⟨15, _⟩ => ⟨S14x4096, .f32⟩
  | .hbm, ⟨16, _⟩ => ⟨S_, .f32⟩
  | .hbm, ⟨17, _⟩ => ⟨S14, .f32⟩
  | .hbm, ⟨18, _⟩ => ⟨S14x1, .f32⟩
  | .hbm, ⟨19, _⟩ => ⟨S14x1, .f32⟩
  | .hbm, ⟨20, _⟩ => ⟨S_, .f32⟩
  | .hbm, ⟨21, _⟩ => ⟨S14x1, .f32⟩
  | .hbm, ⟨22, _⟩ => ⟨S14x1, .f32⟩
  | .hbm, ⟨23, _⟩ => ⟨S14x4096, .f32⟩
  | .hbm, ⟨24, _⟩ => ⟨S14x4096, .f32⟩
  | .hbm, ⟨25, _⟩ => ⟨S4096x14, .f32⟩
  | .hbm, ⟨26, _⟩ => ⟨S4096x14, .bf16⟩
  | .hbm, ⟨27, _⟩ => ⟨S16384x14, .f32⟩
  | .hbm, ⟨28, _⟩ => ⟨S16384x14, .f32⟩
  | .hbm, ⟨29, _⟩ => ⟨S16384x14, .f32⟩
  | .hbm, ⟨30, _⟩ => ⟨S14x16384, .f32⟩
  | .hbm, ⟨31, _⟩ => ⟨S14x14, .f32⟩
  | .hbm, ⟨32, _⟩ => ⟨S_, .f32⟩
  | .hbm, ⟨33, _⟩ => ⟨S14x14, .f32⟩
  | .hbm, ⟨34, _⟩ => ⟨S14x14, .f32⟩
  | .hbm, ⟨35, _⟩ => ⟨S14x14, .f32⟩
  | .hbm, ⟨36, _⟩ => ⟨S14x14, .f32⟩
  | .hbm, ⟨37, _⟩ => ⟨S_, .f32⟩
  | .hbm, ⟨38, _⟩ => ⟨S14x14, .f32⟩
  | .hbm, ⟨39, _⟩ => ⟨S14x14, .f32⟩
  | .hbm, ⟨40, _⟩ => ⟨S_, .f32⟩
  | .hbm, ⟨41, _⟩ => ⟨S14x14, .f32⟩
  | .hbm, ⟨42, _⟩ => ⟨S14x14, .f32⟩
  | .hbm, ⟨43, _⟩ => ⟨S14x14, .f32⟩
  | .hbm, ⟨44, _⟩ => ⟨S14x14, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .local _ .vmem, ⟨0, _⟩ => ⟨S64x4096, .f32⟩
  | .local _ .vmem, ⟨1, _⟩ => ⟨S64x4096, .f32⟩
  | .local _ .vmem, ⟨2, _⟩ => ⟨S4096x4096, .bf16⟩
  | .local _ .vmem, ⟨3, _⟩ => ⟨S1x4096, .f32⟩
  | .local _ .vmem, ⟨4, _⟩ => ⟨S4096x14, .bf16⟩
  | .local _ .vmem, ⟨5, _⟩ => ⟨S64x14, .f32⟩
  | .local _ .vmem, ⟨6, _⟩ => ⟨S64x14, .f32⟩
  | .local _ .vmem, ⟨7, _⟩ => ⟨S64x4096, .f32⟩
  | .local _ .vmem, ⟨8, _⟩ => ⟨S64x4096, .f32⟩
  | .local _ .vmem, ⟨9, _⟩ => ⟨S4096x4096, .bf16⟩
  | .local _ .vmem, ⟨10, _⟩ => ⟨S1x4096, .f32⟩
  | .local _ .vmem, ⟨11, _⟩ => ⟨S4096x14, .bf16⟩
  | .local _ .vmem, ⟨12, _⟩ => ⟨S64x14, .f32⟩
  | .local _ .vmem, ⟨13, _⟩ => ⟨S64x14, .f32⟩
  | .local _ .vmem, ⟨14, _⟩ => ⟨S64x14, .i32⟩
  | .local _ .vmem, ⟨15, _⟩ => ⟨S64x14, .i32⟩
  | .local _ .vmem, ⟨16, _⟩ => ⟨S64x14, .f32⟩
  | .local _ .vmem, ⟨17, _⟩ => ⟨S64x14, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x14 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x14 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![256], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x14 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S64x14 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S64x14 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S64x14 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  transposes_S4096x4096_S4096x4096_1_0 : S4096x4096.Transposes [1, 0] S4096x4096
  bitsLt_bf16_f32 : FTy.bits .bf16 < FTy.bits .f32
  shapeCasts_S4096_S1x4096 : S4096.ShapeCasts S1x4096
  reducesTo_S14x4096_S14_d1 : S14x4096.ReducesTo [1] S14
  h_S_ : 0 < S_.numel
  bcast_S14_S14x1_0 : S14.BroadcastsInDim S14x1 (![0] : Fin 1 → Fin S14x1.rank)
  bcast_S_S14x1 : S_.BroadcastsInDim S14x1 (![] : Fin 0 → Fin S14x1.rank)
  bcast_S14x1_S14x4096_0_1 : S14x1.BroadcastsInDim S14x4096 (![0, 1] : Fin 2 → Fin S14x4096.rank)
  transposes_S14x4096_S4096x14_1_0 : S14x4096.Transposes [1, 0] S4096x14
  inb_S64x4096_S64x4096_0_0 : ∀ a, (![0, 0] : Fin 2 → Nat) a + S64x4096.size a ≤ S64x4096.size a
  h_S64x4096 : 0 < S64x4096.numel
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S64x4096 : S1x4096.Broadcasts S64x4096
  reduces_S64x4096_S64 : S64x4096.Reduces [1] S64
  shapeCasts_S64_S64x1 : S64.ShapeCasts S64x1
  broadcasts_S64x1_S64x4096 : S64x1.Broadcasts S64x4096
  inb_S4096x14_S4096x14_0_0 : ∀ a, (![0, 0] : Fin 2 → Nat) a + S4096x14.size a ≤ S4096x14.size a
  h_S4096x14 : 0 < S4096x14.numel
  shapeCasts_S4096x14_S4096x14 : S4096x14.ShapeCasts S4096x14
  inb_S64x14_S64x14_0_0 : ∀ a, (![0, 0] : Fin 2 → Nat) a + S64x14.size a ≤ S64x14.size a
  h_S64x14 : 0 < S64x14.numel
  shapeCasts_S64x14_S64x14 : S64x14.ShapeCasts S64x14
  transposes_S16384x14_S14x16384_1_0 : S16384x14.Transposes [1, 0] S14x16384
  bcast_S_S14x14 : S_.BroadcastsInDim S14x14 (![] : Fin 0 → Fin S14x14.rank)
  reducesTo_S14x14_S_d0_1 : S14x14.ReducesTo [0, 1] S_
  dot_S64x4096_S4096x4096_S64x4096_1_0_0_1_n_n_wf : DotDims.WF S64x4096 S4096x4096 S64x4096 [1] [0] [0] [1] [] []
  dot_S64x4096_S4096x14_S64x14_1_0_0_1_n_n_wf : DotDims.WF S64x4096 S4096x14 S64x14 [1] [0] [0] [1] [] []
  dot_S14x16384_S16384x14_S14x14_1_0_0_1_n_n_wf : DotDims.WF S14x16384 S16384x14 S14x14 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S16384x4096.size a
  hwx0_0 : ∀ i : grid0.Coords, EltTy.bits .f32 = 32 ∨ (Rect.block (s := S16384x4096) S64x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x14.size a ≤ S4096x14.size a
  hwx0_3 : ∀ i : grid0.Coords, EltTy.bits .bf16 = 32 ∨ (Rect.block (s := S4096x14) S4096x14.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x14.size a ≤ S16384x14.size a
  hwx0_4 : ∀ i : grid0.Coords, EltTy.bits .f32 = 32 ∨ (Rect.block (s := S16384x14) S64x14.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x4096.size a ≤ S16384x4096.size a
  hwx1_0 : ∀ i : grid1.Coords, EltTy.bits .f32 = 32 ∨ (Rect.block (s := S16384x4096) S64x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x4096.size a ≤ S4096x4096.size a
  hwx1_1 : ∀ i : grid1.Coords, EltTy.bits .bf16 = 32 ∨ (Rect.block (s := S4096x4096) S4096x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x14.size a ≤ S4096x14.size a
  hwx1_3 : ∀ i : grid1.Coords, EltTy.bits .bf16 = 32 ∨ (Rect.block (s := S4096x14) S4096x14.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S64x14.size a ≤ S16384x14.size a
  hwx1_4 : ∀ i : grid1.Coords, EltTy.bits .f32 = 32 ∨ (Rect.block (s := S16384x14) S64x14.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S64x14.size a ≤ S16384x14.size a
  hwx1_5 : ∀ i : grid1.Coords, EltTy.bits .i32 = 32 ∨ (Rect.block (s := S16384x14) S64x14.size (cc1_transform_5 i) (hinb1_5 i)).WholeWords (EltTy.packing .i32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S64x14.size a ≤ S16384x14.size a
  hwx1_6 : ∀ i : grid1.Coords, EltTy.bits .f32 = 32 ∨ (Rect.block (s := S16384x14) S64x14.size (cc1_transform_6 i) (hinb1_6 i)).WholeWords (EltTy.packing .f32)

variable [Facts₀]

def dot_S64x4096_S4096x4096_S64x4096_1_0_0_1_n_n : DotDims S64x4096 S4096x4096 S64x4096 where
  lhsContracting := [1]
  rhsContracting := [0]
  lhsNonContracting := [0]
  rhsNonContracting := [1]
  lhsBatch := []
  rhsBatch := []
  wf := dot_S64x4096_S4096x4096_S64x4096_1_0_0_1_n_n_wf
def dot_S64x4096_S4096x14_S64x14_1_0_0_1_n_n : DotDims S64x4096 S4096x14 S64x14 where
  lhsContracting := [1]
  rhsContracting := [0]
  lhsNonContracting := [0]
  rhsNonContracting := [1]
  lhsBatch := []
  rhsBatch := []
  wf := dot_S64x4096_S4096x14_S64x14_1_0_0_1_n_n_wf
def dot_S14x16384_S16384x14_S14x14_1_0_0_1_n_n : DotDims S14x16384 S16384x14 S14x14 where
  lhsContracting := [1]
  rhsContracting := [0]
  lhsNonContracting := [0]
  rhsNonContracting := [1]
  lhsBatch := []
  rhsBatch := []
  wf := dot_S14x16384_S16384x14_S14x14_1_0_0_1_n_n_wf

abbrev win0_0 : Pipeline.Window sig grid0 :=
  Pipeline.Window.ofSpec (Memref.whole main_arg0) S64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S4096x14.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S64x14.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S64x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S4096x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S4096x14.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S64x14.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg2) S64x14.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v17) S64x14.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S16384x4096 : Shape := ⟨2, ![16384, 4096]⟩
abbrev S16384x14 : Shape := ⟨2, ![16384, 14]⟩
abbrev S4096x4096 : Shape := ⟨2, ![4096, 4096]⟩
abbrev S4096 : Shape := ⟨1, ![4096]⟩
abbrev S14x4096 : Shape := ⟨2, ![14, 4096]⟩
abbrev S14x14 : Shape := ⟨2, ![14, 14]⟩
abbrev S1x4096 : Shape := ⟨2, ![1, 4096]⟩
abbrev S_ : Shape := ⟨0, ![]⟩
abbrev S16384 : Shape := ⟨1, ![16384]⟩
abbrev S16384x1 : Shape := ⟨2, ![16384, 1]⟩
abbrev S14 : Shape := ⟨1, ![14]⟩
abbrev S14x1 : Shape := ⟨2, ![14, 1]⟩
abbrev S4096x14 : Shape := ⟨2, ![4096, 14]⟩
abbrev S14x16384 : Shape := ⟨2, ![14, 16384]⟩

abbrev nBuf : Space → Nat
  | .hbm => 78
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S16384x14, .i32⟩
  | .hbm, ⟨3, _⟩ => ⟨S4096x4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S14x4096, .f32⟩
  | .hbm, ⟨8, _⟩ => ⟨S14x14, .f32⟩
  | .hbm, ⟨9, _⟩ => ⟨S16384x14, .f32⟩
  | .hbm, ⟨10, _⟩ => ⟨S4096x4096, .f32⟩
  | .hbm, ⟨11, _⟩ => ⟨S16384x4096, .f32⟩
  | .hbm, ⟨12, _⟩ => ⟨S1x4096, .f32⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x4096, .f32⟩
  | .hbm, ⟨24, _⟩ => ⟨S16384x4096, .f32⟩
  | .hbm, ⟨25, _⟩ => ⟨S4096x4096, .f32⟩
  | .hbm, ⟨26, _⟩ => ⟨S16384x4096, .f32⟩
  | .hbm, ⟨27, _⟩ => ⟨S1x4096, .f32⟩
  | .hbm, ⟨28, _⟩ => ⟨S16384x4096, .f32⟩
  | .hbm, ⟨29, _⟩ => ⟨S16384x4096, .f32⟩
  | .hbm, ⟨30, _⟩ => ⟨S16384x4096, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x4096, .f32⟩
  | .hbm, ⟨39, _⟩ => ⟨S16384x4096, .f32⟩
  | .hbm, ⟨40, _⟩ => ⟨S14x4096, .f32⟩
  | .hbm, ⟨41, _⟩ => ⟨S_, .f32⟩
  | .hbm, ⟨42, _⟩ => ⟨S14, .f32⟩
  | .hbm, ⟨43, _⟩ => ⟨S14x1, .f32⟩
  | .hbm, ⟨44, _⟩ => ⟨S14x1, .f32⟩
  | .hbm, ⟨45, _⟩ => ⟨S_, .f32⟩
  | .hbm, ⟨46, _⟩ => ⟨S14x1, .f32⟩
  | .hbm, ⟨47, _⟩ => ⟨S14x1, .f32⟩
  | .hbm, ⟨48, _⟩ => ⟨S14x4096, .f32⟩
  | .hbm, ⟨49, _⟩ => ⟨S14x4096, .f32⟩
  | .hbm, ⟨50, _⟩ => ⟨S4096x14, .f32⟩
  | .hbm, ⟨51, _⟩ => ⟨S16384x14, .f32⟩
  | .hbm, ⟨52, _⟩ => ⟨S4096x14, .f32⟩
  | .hbm, ⟨53, _⟩ => ⟨S16384x14, .f32⟩
  | .hbm, ⟨54, _⟩ => ⟨S16384x14, .f32⟩
  | .hbm, ⟨55, _⟩ => ⟨S_, .f32⟩
  | .hbm, ⟨56, _⟩ => ⟨S16384x14, .f32⟩
  | .hbm, ⟨57, _⟩ => ⟨S16384x14, .f32⟩
  | .hbm, ⟨58, _⟩ => ⟨S16384x14, .f32⟩
  | .hbm, ⟨59, _⟩ => ⟨S14x16384, .f32⟩
  | .hbm, ⟨60, _⟩ => ⟨S14x14, .f32⟩
  | .hbm, ⟨61, _⟩ => ⟨S_, .f32⟩
  | .hbm, ⟨62, _⟩ => ⟨S14x14, .f32⟩
  | .hbm, ⟨63, _⟩ => ⟨S14x14, .f32⟩
  | .hbm, ⟨64, _⟩ => ⟨S14x14, .f32⟩
  | .hbm, ⟨65, _⟩ => ⟨S14x14, .f32⟩
  | .hbm, ⟨66, _⟩ => ⟨S_, .f32⟩
  | .hbm, ⟨67, _⟩ => ⟨S14x14, .f32⟩
  | .hbm, ⟨68, _⟩ => ⟨S14x14, .f32⟩
  | .hbm, ⟨69, _⟩ => ⟨S_, .f32⟩
  | .hbm, ⟨70, _⟩ => ⟨S14x14, .f32⟩
  | .hbm, ⟨71, _⟩ => ⟨S14x14, .f32⟩
  | .hbm, ⟨72, _⟩ => ⟨S14x14, .f32⟩
  | .hbm, ⟨73, _⟩ => ⟨S14x14, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_6 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_7 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  reducesTo_S16384x4096_S16384_d1 : S16384x4096.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x4096_0_1 : S16384x1.BroadcastsInDim S16384x4096 (![0, 1] : Fin 2 → Fin S16384x4096.rank)
  reducesTo_S14x4096_S14_d1 : S14x4096.ReducesTo [1] S14
  bcast_S14_S14x1_0 : S14.BroadcastsInDim S14x1 (![0] : Fin 1 → Fin S14x1.rank)
  bcast_S_S14x1 : S_.BroadcastsInDim S14x1 (![] : Fin 0 → Fin S14x1.rank)
  bcast_S14x1_S14x4096_0_1 : S14x1.BroadcastsInDim S14x4096 (![0, 1] : Fin 2 → Fin S14x4096.rank)
  transposes_S14x4096_S4096x14_1_0 : S14x4096.Transposes [1, 0] S4096x14
  bcast_S_S16384x14 : S_.BroadcastsInDim S16384x14 (![] : Fin 0 → Fin S16384x14.rank)
  transposes_S16384x14_S14x16384_1_0 : S16384x14.Transposes [1, 0] S14x16384
  bcast_S_S14x14 : S_.BroadcastsInDim S14x14 (![] : Fin 0 → Fin S14x14.rank)
  reducesTo_S14x14_S_d0_1 : S14x14.ReducesTo [0, 1] S_
  dot_S16384x4096_S4096x4096_S16384x4096_1_0_0_1_n_n_wf : DotDims.WF S16384x4096 S4096x4096 S16384x4096 [1] [0] [0] [1] [] []
  dot_S16384x4096_S4096x14_S16384x14_1_0_0_1_n_n_wf : DotDims.WF S16384x4096 S4096x14 S16384x14 [1] [0] [0] [1] [] []
  dot_S14x16384_S16384x14_S14x14_1_0_0_1_n_n_wf : DotDims.WF S14x16384 S16384x14 S14x14 [1] [0] [0] [1] [] []

variable [Facts₀]

def dot_S16384x4096_S4096x4096_S16384x4096_1_0_0_1_n_n : DotDims S16384x4096 S4096x4096 S16384x4096 where
  lhsContracting := [1]
  rhsContracting := [0]
  lhsNonContracting := [0]
  rhsNonContracting := [1]
  lhsBatch := []
  rhsBatch := []
  wf := dot_S16384x4096_S4096x4096_S16384x4096_1_0_0_1_n_n_wf
def dot_S16384x4096_S4096x14_S16384x14_1_0_0_1_n_n : DotDims S16384x4096 S4096x14 S16384x14 where
  lhsContracting := [1]
  rhsContracting := [0]
  lhsNonContracting := [0]
  rhsNonContracting := [1]
  lhsBatch := []
  rhsBatch := []
  wf := dot_S16384x4096_S4096x14_S16384x14_1_0_0_1_n_n_wf
def dot_S14x16384_S16384x14_S14x14_1_0_0_1_n_n : DotDims S14x16384 S16384x14 S14x14 where
  lhsContracting := [1]
  rhsContracting := [0]
  lhsNonContracting := [0]
  rhsNonContracting := [1]
  lhsBatch := []
  rhsBatch := []
  wf := dot_S14x16384_S16384x14_S14x14_1_0_0_1_n_n_wf

class Facts : Prop extends Facts₀ where

variable [Facts]
-- ==== Proof.RowSpec.lean ====
/-
  The mathematics both programs compute, one batch row at a time, over the extended reals.

  A feature row `x` (4096 entries) is sent through an affine map, `y j = (∑ k, x k · w j k) + b j`, then divided by its
  Euclidean length clamped below by a small constant, `u j = y j / max (√(∑ j, y j · y j)) ε`, and compared with each of the
  fourteen unit prototypes, `s a = ∑ j, u j · p j a`. The two modalities' similarities are averaged and masked by the label:
  `(½ · (s_image a + s_text a)) · label`. Nothing here distributes, cancels or reorders across an infinity: the two programs
  differ only in how they tile the rows and in the format changes that are the identity on extended reals.
-/
import Idealize.ShloMosaic.PureOps.Ideal
import Idealize.ShloMosaic.PureOps.Ideal.Laws
import Idealize.ShloMosaic.Lib.ValueIdx

noncomputable section

namespace Cert.RowSpec

open Idealize.ShloMosaic Idealize.ShloMosaic.ValueIdx

/-- The clamp under the Euclidean length: the binary32 word both programs print for `1e-12`, read as the number it encodes. -/
abbrev lengthFloor : EReal := Ideal.ofBits .f32 0x2B8CBCCC#32

/-- The weight of the average of the two modalities: the word of `0.5`. -/
abbrev halfWeight : EReal := Ideal.ofBits .f32 0x3F000000#32

/-- Entry `j` of the affine image of a row: `(∑ k, x k · w j k) + b j`, the weight matrix indexed as the argument array holds
    it (output feature first). -/
def affine (x : Fin 4096 → EReal) (w : Fin 4096 → Fin 4096 → EReal) (b : Fin 4096 → EReal) (j : Fin 4096) : EReal :=
  (∑ k : Fin 4096, x k * w j k) + b j

/-- The Euclidean length of a row, clamped below. -/
def clampedLength (y : Fin 4096 → EReal) : EReal :=
  max (Ideal.sqrt (∑ j : Fin 4096, y j * y j)) lengthFloor

/-- A row divided by its clamped length. -/
def unitRow (y : Fin 4096 → EReal) (j : Fin 4096) : EReal :=
  Ideal.div (y j) (clampedLength y)

/-- The similarity of a feature row with prototype `a`: the inner product of the row's unit affine image with column `a` of the
    prototype table `p` (feature index first). -/
def similarity (x : Fin 4096 → EReal) (w : Fin 4096 → Fin 4096 → EReal) (b : Fin 4096 → EReal)
    (p : Fin 4096 → Fin 14 → EReal) (a : Fin 14) : EReal :=
  ∑ j : Fin 4096, unitRow (affine x w b) j * p j a

/-- One entry of the result: the two modalities' similarities with prototype `a`, averaged, times the row's label for `a`. -/
def maskedMean (sImage sText label : EReal) : EReal :=
  (halfWeight * (sImage + sText)) * label

/-! ## The same, array by array

The batch has 16384 rows. Row `r` of a feature array is `fun k => X (r, k)`; the bias is a vector; the prototype table is
held feature-first, `[4096, 14]`. Indices are taken apart by their coordinates so that the statements below are over
`Fin 16384`, `Fin 4096` and `Fin 14`. -/

/-- Row `r` of a `[16384, 4096]` array. -/
def rowOf (X : (⟨2, ![16384, 4096]⟩ : Shape).Idx → EReal) (r : Fin 16384) : Fin 4096 → EReal := fun k => X (ix2 r k)

/-- A `[4096, 4096]` weight array by its two coordinates, output feature first. -/
def weightOf (W : (⟨2, ![4096, 4096]⟩ : Shape).Idx → EReal) : Fin 4096 → Fin 4096 → EReal := fun j k => W (ix2 j k)

/-- A bias vector by its coordinate. -/
def biasOf (b : (⟨1, ![4096]⟩ : Shape).Idx → EReal) : Fin 4096 → EReal := fun j => b (ix1 j)

/-- The `[4096, 14]` prototype table by its two coordinates. -/
def tableOf (P : (⟨2, ![4096, 14]⟩ : Shape).Idx → EReal) : Fin 4096 → Fin 14 → EReal := fun j a => P (ix2 j a)

/-- Every row's similarity with every prototype: the `[16384, 14]` array one projection path produces. -/
def similarityArr (X : (⟨2, ![16384, 4096]⟩ : Shape).Idx → EReal) (W : (⟨2, ![4096, 4096]⟩ : Shape).Idx → EReal)
    (b : (⟨1, ![4096]⟩ : Shape).Idx → EReal) (P : (⟨2, ![4096, 14]⟩ : Shape).Idx → EReal) :
    (⟨2, ![16384, 14]⟩ : Shape).Idx → EReal := fun i =>
  similarity (rowOf X ⟨(i 0).val, (i 0).isLt⟩) (weightOf W) (biasOf b) (tableOf P) ⟨(i 1).val, (i 1).isLt⟩

theorem similarityArr_ix2 (X : (⟨2, ![16384, 4096]⟩ : Shape).Idx → EReal) (W : (⟨2, ![4096, 4096]⟩ : Shape).Idx → EReal)
    (b : (⟨1, ![4096]⟩ : Shape).Idx → EReal) (P : (⟨2, ![4096, 14]⟩ : Shape).Idx → EReal) (r : Fin 16384) (a : Fin 14) :
    similarityArr X W b P (ix2 r a) = similarity (rowOf X r) (weightOf W) (biasOf b) (tableOf P) a := rfl

/-- The result array: the two paths' similarities averaged and masked by the labels (already converted to numbers). -/
def maskedMeanArr (sImage sText label : (⟨2, ![16384, 14]⟩ : Shape).Idx → EReal) :
    (⟨2, ![16384, 14]⟩ : Shape).Idx → EReal := fun i =>
  maskedMean (sImage i) (sText i) (label i)

end Cert.RowSpec

end
-- ==== Proof.BodyValue.lean ====
/-
  The arithmetic of the two kernel bodies, read at one entry of the `[64, 14]` block they store.
-/
import proofs.«408333_j34445637714521_3_alg».proof.Proof.Gen.KernelIdeal.Skeleton
import proofs.«408333_j34445637714521_3_alg».proof.Proof.RowSpec
import Idealize.ShloMosaic.Lib.ValueIdx
import Idealize.ShloMosaic.Lib.Pipeline.Value
import Idealize.ShloMosaic.PureOps.Ideal.Laws

noncomputable section

namespace Cert.KernelIdeal.BodyValue

open Cert.KernelIdeal Cert.KernelIdeal.Gen Idealize.ShloMosaic Idealize.ShloMosaic.ValueIdx Cert.RowSpec

/-! ## The two block products, read at an entry -/

theorem lhs_proj_0 (i : S64x4096.Idx) (q : dot_S64x4096_S4096x4096_S64x4096_1_0_0_1_n_n.contr.Idx) :
    (dot_S64x4096_S4096x4096_S64x4096_1_0_0_1_n_n.lhsIdx i q 0).val = (i 0).val := by
  unfold DotDims.lhsIdx
  rw [dif_neg (show ¬(0 : Fin S64x4096.rank) ∈ dot_S64x4096_S4096x4096_S64x4096_1_0_0_1_n_n.lhsBatch by decide), dif_pos (show (0 : Fin S64x4096.rank) ∈ dot_S64x4096_S4096x4096_S64x4096_1_0_0_1_n_n.lhsNonContracting by decide)]
  rfl
theorem lhs_proj_1 (i : S64x4096.Idx) (q : dot_S64x4096_S4096x4096_S64x4096_1_0_0_1_n_n.contr.Idx) :
    (dot_S64x4096_S4096x4096_S64x4096_1_0_0_1_n_n.lhsIdx i q 1).val = (q ⟨0, by decide⟩).val :=
  dot_S64x4096_S4096x4096_S64x4096_1_0_0_1_n_n.lhsIdx_val_of_single rfl i q
theorem rhs_proj_0 (i : S64x4096.Idx) (q : dot_S64x4096_S4096x4096_S64x4096_1_0_0_1_n_n.contr.Idx) :
    (dot_S64x4096_S4096x4096_S64x4096_1_0_0_1_n_n.rhsIdx i q 0).val = (q ⟨0, by decide⟩).val :=
  dot_S64x4096_S4096x4096_S64x4096_1_0_0_1_n_n.rhsIdx_val_of_single rfl i q
theorem rhs_proj_1 (i : S64x4096.Idx) (q : dot_S64x4096_S4096x4096_S64x4096_1_0_0_1_n_n.contr.Idx) :
    (dot_S64x4096_S4096x4096_S64x4096_1_0_0_1_n_n.rhsIdx i q 1).val = (i 1).val := by
  unfold DotDims.rhsIdx
  rw [dif_neg (show ¬(1 : Fin S4096x4096.rank) ∈ dot_S64x4096_S4096x4096_S64x4096_1_0_0_1_n_n.rhsBatch by decide), dif_pos (show (1 : Fin S4096x4096.rank) ∈ dot_S64x4096_S4096x4096_S64x4096_1_0_0_1_n_n.rhsNonContracting by decide)]
  rfl

/-- The projection product into a zero accumulator, at entry `(p, j)`: row `p` of the left block against column `j` of the right. -/
theorem matmul_proj_apply (l : FVec Ideal S64x4096 .bf16) (r : FVec Ideal S4096x4096 .bf16) (p : Fin 64) (j : Fin 4096) :
    FloatOps.matmul dot_S64x4096_S4096x4096_S64x4096_1_0_0_1_n_n none l r (constant S64x4096 .f32 0x00000000#32) (ix2 p j)
      = ∑ k : Fin 4096, l (ix2 p k) * r (ix2 k j) := by
  rw [Ideal.matmul_constant_zero_apply, ← Equiv.sum_comp (ValueIdx.contrEquiv1 dot_S64x4096_S4096x4096_S64x4096_1_0_0_1_n_n 4096 rfl rfl).symm]
  refine Finset.sum_congr rfl fun k _ => ?_
  have hk := ValueIdx.contrEquiv1_symm_val dot_S64x4096_S4096x4096_S64x4096_1_0_0_1_n_n 4096 rfl rfl k
  have el : dot_S64x4096_S4096x4096_S64x4096_1_0_0_1_n_n.lhsIdx (ix2 p j) ((ValueIdx.contrEquiv1 dot_S64x4096_S4096x4096_S64x4096_1_0_0_1_n_n 4096 rfl rfl).symm k) = ix2 p k := funext fun a => Fin.ext (by
    match a with
    | ⟨0, _⟩ => exact lhs_proj_0 _ _
    | ⟨1, _⟩ => exact (lhs_proj_1 _ _).trans hk)
  have er : dot_S64x4096_S4096x4096_S64x4096_1_0_0_1_n_n.rhsIdx (ix2 p j) ((ValueIdx.contrEquiv1 dot_S64x4096_S4096x4096_S64x4096_1_0_0_1_n_n 4096 rfl rfl).symm k) = ix2 k j := funext fun a => Fin.ext (by
    match a with
    | ⟨0, _⟩ => exact (rhs_proj_0 _ _).trans hk
    | ⟨1, _⟩ => exact rhs_proj_1 _ _)
  rw [el, er]

theorem lhs_table_0 (i : S64x14.Idx) (q : dot_S64x4096_S4096x14_S64x14_1_0_0_1_n_n.contr.Idx) :
    (dot_S64x4096_S4096x14_S64x14_1_0_0_1_n_n.lhsIdx i q 0).val = (i 0).val := by
  unfold DotDims.lhsIdx
  rw [dif_neg (show ¬(0 : Fin S64x4096.rank) ∈ dot_S64x4096_S4096x14_S64x14_1_0_0_1_n_n.lhsBatch by decide), dif_pos (show (0 : Fin S64x4096.rank) ∈ dot_S64x4096_S4096x14_S64x14_1_0_0_1_n_n.lhsNonContracting by decide)]
  rfl
theorem lhs_table_1 (i : S64x14.Idx) (q : dot_S64x4096_S4096x14_S64x14_1_0_0_1_n_n.contr.Idx) :
    (dot_S64x4096_S4096x14_S64x14_1_0_0_1_n_n.lhsIdx i q 1).val = (q ⟨0, by decide⟩).val :=
  dot_S64x4096_S4096x14_S64x14_1_0_0_1_n_n.lhsIdx_val_of_single rfl i q
theorem rhs_table_0 (i : S64x14.Idx) (q : dot_S64x4096_S4096x14_S64x14_1_0_0_1_n_n.contr.Idx) :
    (dot_S64x4096_S4096x14_S64x14_1_0_0_1_n_n.rhsIdx i q 0).val = (q ⟨0, by decide⟩).val :=
  dot_S64x4096_S4096x14_S64x14_1_0_0_1_n_n.rhsIdx_val_of_single rfl i q
theorem rhs_table_1 (i : S64x14.Idx) (q : dot_S64x4096_S4096x14_S64x14_1_0_0_1_n_n.contr.Idx) :
    (dot_S64x4096_S4096x14_S64x14_1_0_0_1_n_n.rhsIdx i q 1).val = (i 1).val := by
  unfold DotDims.rhsIdx
  rw [dif_neg (show ¬(1 : Fin S4096x14.rank) ∈ dot_S64x4096_S4096x14_S64x14_1_0_0_1_n_n.rhsBatch by decide), dif_pos (show (1 : Fin S4096x14.rank) ∈ dot_S64x4096_S4096x14_S64x14_1_0_0_1_n_n.rhsNonContracting by decide)]
  rfl

/-- The product with the prototype table into a zero accumulator, at entry `(p, a)`: row `p` of the left block against column
    `a` of the table. -/
theorem matmul_table_apply (l : FVec Ideal S64x4096 .bf16) (r : FVec Ideal S4096x14 .bf16) (p : Fin 64) (a : Fin 14) :
    FloatOps.matmul dot_S64x4096_S4096x14_S64x14_1_0_0_1_n_n none l r (constant S64x14 .f32 0x00000000#32) (ix2 p a)
      = ∑ k : Fin 4096, l (ix2 p k) * r (ix2 k a) := by
  rw [Ideal.matmul_constant_zero_apply, ← Equiv.sum_comp (ValueIdx.contrEquiv1 dot_S64x4096_S4096x14_S64x14_1_0_0_1_n_n 4096 rfl rfl).symm]
  refine Finset.sum_congr rfl fun k _ => ?_
  have hk := ValueIdx.contrEquiv1_symm_val dot_S64x4096_S4096x14_S64x14_1_0_0_1_n_n 4096 rfl rfl k
  have el : dot_S64x4096_S4096x14_S64x14_1_0_0_1_n_n.lhsIdx (ix2 p a) ((ValueIdx.contrEquiv1 dot_S64x4096_S4096x14_S64x14_1_0_0_1_n_n 4096 rfl rfl).symm k) = ix2 p k := funext fun c => Fin.ext (by
    match c with
    | ⟨0, _⟩ => exact lhs_table_0 _ _
    | ⟨1, _⟩ => exact (lhs_table_1 _ _).trans hk)
  have er : dot_S64x4096_S4096x14_S64x14_1_0_0_1_n_n.rhsIdx (ix2 p a) ((ValueIdx.contrEquiv1 dot_S64x4096_S4096x14_S64x14_1_0_0_1_n_n 4096 rfl rfl).symm k) = ix2 k a := funext fun c => Fin.ext (by
    match c with
    | ⟨0, _⟩ => exact (rhs_table_0 _ _).trans hk
    | ⟨1, _⟩ => exact rhs_table_1 _ _)
  rw [el, er]

/-! ## The re-laid pieces, read at an entry -/

/-- The bias row spread over the 64 rows of the block: entry `(p, j)` is the row's entry `j`. -/
theorem bias_rows_apply (b : FVec Ideal S1x4096 .f32) (p : Fin 64) (j : Fin 4096) :
    broadcastTo S64x4096 b broadcasts_S1x4096_S64x4096 (ix2 p j) = b (ix2 (0 : Fin 1) j) :=
  broadcastTo_apply b broadcasts_S1x4096_S64x4096 (ix2 p j) (ix2 (0 : Fin 1) j) (fun c => match c with
    | ⟨0, _⟩ => rfl
    | ⟨1, _⟩ => rfl)

/-- A column of per-row numbers spread over the 4096 lanes: entry `(p, j)` is the column's entry `p`. -/
theorem column_lanes_apply (c : FVec Ideal S64x1 .f32) (p : Fin 64) (j : Fin 4096) :
    broadcastTo S64x4096 c broadcasts_S64x1_S64x4096 (ix2 p j) = c (ix2 p (0 : Fin 1)) :=
  broadcastTo_apply c broadcasts_S64x1_S64x4096 (ix2 p j) (ix2 p (0 : Fin 1)) (fun d => match d with
    | ⟨0, _⟩ => rfl
    | ⟨1, _⟩ => rfl)

/-- A vector of 64 numbers stood up as a `[64, 1]` column: entry `(p, 0)` is the vector's entry `p`. -/
theorem column_cast_apply (v : FVec Ideal S64 .f32) (p : Fin 64) :
    shapeCast S64x1 v shapeCasts_S64_S64x1 (ix2 p (0 : Fin 1)) = v (ix1 p) :=
  shapeCast_apply v shapeCasts_S64_S64x1 (ix2 p (0 : Fin 1)) (ix1 p) (by
    rw [Shape.rowMajor_val_one, Shape.rowMajor_val_two]
    show p.val = p.val * 1 + 0
    omega)

/-- The sum over the lanes of a `[64, 4096]` block, at row `p`. -/
theorem lane_sum_apply (src : FVec Ideal S64x4096 .f32) (hacc : (0x00000000#32 : BitVec 32) = 0x00000000#32) (p : Fin 64) :
    multiReduction .add [1] S64 src 0x00000000#32 reduces_S64x4096_S64 (.inl rfl) hacc (ix1 p)
      = ∑ j : Fin 4096, src (ix2 p j) := by
  refine (Ideal.multiReduction_add_single src 0x00000000#32 reduces_S64x4096_S64 (.inl rfl) hacc (ix1 p)).trans ?_
  refine Finset.sum_congr rfl fun j _ => congrArg src ?_
  funext c
  match c with
  | ⟨0, _⟩ => rfl
  | ⟨1, _⟩ => rfl

/-! ## The body's three stages as block functions -/

/-- The affine image of the feature block: the projection product plus the bias row on every row. -/
def affineBlock (x0 : FVec Ideal S64x4096 .f32) (x1 : FVec Ideal S4096x4096 .bf16) (x2 : FVec Ideal S1x4096 .f32) :
    FVec Ideal S64x4096 .f32 :=
  addf (matmul dot_S64x4096_S4096x4096_S64x4096_1_0_0_1_n_n none (truncf .bf16 x0 bitsLt_bf16_f32)
      (shapeCast S4096x4096 x1 shapeCasts_S4096x4096_S4096x4096) (constant S64x4096 .f32 0x00000000#32))
    (broadcastTo S64x4096 (shapeCast S1x4096 x2 shapeCasts_S1x4096_S1x4096) broadcasts_S1x4096_S64x4096)

/-- A block with every row divided by its clamped Euclidean length. -/
def unitBlock (y : FVec Ideal S64x4096 .f32) : FVec Ideal S64x4096 .f32 :=
  divf y (broadcastTo S64x4096
    (maximumf (sqrt (shapeCast S64x1 (multiReduction .add [1] S64 (mulf y y) 0x00000000#32 reduces_S64x4096_S64 (.inl rfl) rfl)
        shapeCasts_S64_S64x1))
      (broadcast S64x1 (Scalar.ofBits .f32 0x2B8CBCCC#32)))
    broadcasts_S64x1_S64x4096)

/-- The first body's stored value is the table product of the unit affine block. -/
theorem k0_pay1_eq (x0 : Vec Ideal S64x4096 .f32) (x1 : Vec Ideal S4096x4096 .bf16) (x2 : Vec Ideal S1x4096 .f32)
    (x3 : Vec Ideal S4096x14 .bf16) :
    k0_pay1 (F := Ideal) x0 x1 x2 x3
      = matmul (φ₂ := .bf16) dot_S64x4096_S4096x14_S64x14_1_0_0_1_n_n none (truncf .bf16 (unitBlock (affineBlock x0 x1 x2)) bitsLt_bf16_f32)
          (shapeCast S4096x14 x3 shapeCasts_S4096x14_S4096x14) (constant S64x14 .f32 0x00000000#32) := rfl

/-- Entry `(p, j)` of the affine block is entry `j` of the affine image of row `p`. -/
theorem affineBlock_apply (x0 : FVec Ideal S64x4096 .f32) (x1 : FVec Ideal S4096x4096 .bf16) (x2 : FVec Ideal S1x4096 .f32)
    (p : Fin 64) (j : Fin 4096) :
    affineBlock x0 x1 x2 (ix2 p j)
      = affine (fun k => x0 (ix2 p k)) (fun j k => x1 (ix2 k j)) (fun j => x2 (ix2 (0 : Fin 1) j)) j := by
  unfold affineBlock affine
  rw [shapeCast_self, shapeCast_self, addf_apply, bias_rows_apply]
  simp only [matmul]
  rw [matmul_proj_apply]
  rfl

/-- Entry `(p, j)` of the unit block is entry `j` of row `p` divided by its clamped length. -/
theorem unitBlock_apply (y : FVec Ideal S64x4096 .f32) (p : Fin 64) (j : Fin 4096) :
    unitBlock y (ix2 p j) = unitRow (fun j => y (ix2 p j)) j := by
  unfold unitBlock unitRow clampedLength
  rw [divf_apply, column_lanes_apply, maximumf_apply]
  show Ideal.div (y (ix2 p j)) (max (Ideal.sqrt (shapeCast S64x1 _ shapeCasts_S64_S64x1 (ix2 p (0 : Fin 1)))) lengthFloor) = _
  rw [column_cast_apply, lane_sum_apply]
  rfl

/-- Entry `(p, a)` of the first body's stored block is the similarity of row `p` of the feature block with prototype `a`:
    the weight block is held input-feature first (it is the transposed weight), the bias as a `[1, 4096]` row. -/
theorem similarity_payload (x0 : Vec Ideal S64x4096 .f32) (x1 : Vec Ideal S4096x4096 .bf16) (x2 : Vec Ideal S1x4096 .f32)
    (x3 : Vec Ideal S4096x14 .bf16) (p : Fin 64) (a : Fin 14) :
    k0_pay1 (F := Ideal) x0 x1 x2 x3 (ix2 p a)
      = similarity (fun k => x0 (ix2 p k)) (fun j k => x1 (ix2 k j)) (fun j => x2 (ix2 (0 : Fin 1) j)) (fun j a' => x3 (ix2 j a')) a := by
  rw [k0_pay1_eq, shapeCast_self]
  simp only [matmul]
  rw [matmul_table_apply]
  unfold similarity
  refine Finset.sum_congr rfl fun j _ => ?_
  rw [truncf_apply, unitBlock_apply]
  refine congrArg (fun y => unitRow y j * x3 (ix2 j a)) ?_
  funext k
  exact affineBlock_apply x0 x1 x2 p k

/-- The second body's stored value is the first body's, added to the block `x4`, halved and multiplied by the labels as numbers. -/
theorem k1_pay1_eq (x0 : Vec Ideal S64x4096 .f32) (x1 : Vec Ideal S4096x4096 .bf16) (x2 : Vec Ideal S1x4096 .f32)
    (x3 : Vec Ideal S4096x14 .bf16) (x5 : Vec Ideal S64x14 .i32) (x4 : Vec Ideal S64x14 .f32) :
    k1_pay1 (F := Ideal) x0 x1 x2 x3 x5 x4
      = mulf (mulf (broadcast S64x14 (Scalar.ofBits .f32 0x3F000000#32))
          (addf (shapeCast S64x14 x4 shapeCasts_S64x14_S64x14) (k0_pay1 (F := Ideal) x0 x1 x2 x3))) (sitofp .f32 x5) := rfl

/-- Entry `(p, a)` of the second body's stored block: the first path's similarity `x4`, read from its block, averaged with this
    path's and masked by the label `x5`. -/
theorem maskedMean_payload (x0 : Vec Ideal S64x4096 .f32) (x1 : Vec Ideal S4096x4096 .bf16) (x2 : Vec Ideal S1x4096 .f32)
    (x3 : Vec Ideal S4096x14 .bf16) (x5 : Vec Ideal S64x14 .i32) (x4 : Vec Ideal S64x14 .f32) (p : Fin 64) (a : Fin 14) :
    k1_pay1 (F := Ideal) x0 x1 x2 x3 x5 x4 (ix2 p a)
      = maskedMean (x4 (ix2 p a))
          (similarity (fun k => x0 (ix2 p k)) (fun j k => x1 (ix2 k j)) (fun j => x2 (ix2 (0 : Fin 1) j)) (fun j a' => x3 (ix2 j a')) a)
          (FloatOps.sitofp (F := Ideal) .f32 (x5 (ix2 p a))) := by
  rw [k1_pay1_eq, shapeCast_self, mulf_apply, mulf_apply, addf_apply, similarity_payload]
  rfl

end Cert.KernelIdeal.BodyValue

end
-- ==== Proof.ImageRegion.lean ====
/-
  The first region, read as a value. Its grid has 256 points; point `t` reads rows `64 t … 64 t + 63` of the image
  features, the whole transposed weight, the bias row and the prototype table, and writes rows `64 t … 64 t + 63` of a
  `[16384, 14]` array. Every entry it writes is the similarity of one batch row with one prototype, so the blocks are the
  restrictions of ONE array, and since the 256 blocks tile the rows the array after the region is that array.
-/
import proofs.«408333_j34445637714521_3_alg».proof.Proof.Gen.KernelIdeal.Frame
import proofs.«408333_j34445637714521_3_alg».proof.Proof.RowSpec
import proofs.«408333_j34445637714521_3_alg».proof.Proof.BodyValue
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.ImageRegion

open Cert.KernelIdeal Cert.KernelIdeal.Gen Idealize.ShloMosaic Idealize.ShloMosaic.TcCoe Idealize.SL.Sem Idealize.ShloMosaic.StableHlo Idealize.ShloMosaic.ValueIdx Cert.RowSpec
open Idealize.ShloMosaic.Pipeline (Dat Cfg Window)

variable (m : (ℓ : Loc nD τ sig) → Buf (Elt Ideal) ℓ) (ρ : Dev nD → PrngReg)

theorem hz : (![0, 0] : Fin 2 → Nat) = fun _ => 0 := funext fun a => by fin_cases a <;> rfl

/-- The block each window is on at point `t`: the feature and output windows move down the rows with the point, the weight,
    bias and table windows stay on their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `64 t + p` of the batch: row `p` of block `t`. -/
def rowAt (t : Fin cfg0.N) (p : Fin 64) : Fin 16384 :=
  ⟨64 * t.val + p.val, by have := lt_of_lt_of_eq t.isLt N_0; have := p.isLt; omega⟩

/-- The array the region leaves: every image row's similarity with every prototype, the prototype table being what the
    region finds in its table operand. -/
def G (c : Dev nD) : S16384x14.Idx → EReal :=
  similarityArr (m ((c.tc : Thread nD τ).loc main_arg0)) (m ((c.tc : Thread nD τ).loc main_arg3)) (m ((c.tc : Thread nD τ).loc main_arg4)) (V1 m ρ c main_v15)

/-! ## What the region finds in its operands -/

/-- The image features are as launched: no host operation before the region writes them. -/
theorem entry_feature (c : Dev nD) : V1 m ρ c main_arg0 = m ((c.tc : Thread nD τ).loc main_arg0) := by
  show StableHlo.after hostOps0 (W0 m ρ c) (Proc.devRef .tc main_arg0) = _
  after_results <;> rfl

/-- The weight operand is the image weight transposed (the change of format is the identity on extended reals). -/
theorem entry_weight (c : Dev nD) :
    (V1 m ρ c main_v1 : S4096x4096.Idx → EReal) = truncf (F := Ideal) .bf16 (transpose S4096x4096 [1, 0] (m ((c.tc : Thread nD τ).loc main_arg3)) transposes_S4096x4096_S4096x4096_1_0) bitsLt_bf16_f32 := by
  show StableHlo.after hostOps0 (W0 m ρ c) (Proc.devRef .tc main_v1) = _
  after_results <;> rfl

/-- The bias operand is the bias vector as one row. -/
theorem entry_bias (c : Dev nD) :
    (V1 m ρ c main_v4 : S1x4096.Idx → EReal) = shapeCast S1x4096 (m ((c.tc : Thread nD τ).loc main_arg4)) shapeCasts_S4096_S1x4096 := by
  show StableHlo.after hostOps0 (W0 m ρ c) (Proc.devRef .tc main_v4) = _
  after_results <;> rfl

/-! ## The blocks at a point, entry by entry -/

theorem read_feature (c : Dev nD) (t : Fin cfg0.N) (p : Fin 64) (k : Fin 4096) :
    iblk0 (V1 m ρ) c 0 t (ix2 p k) = m ((c.tc : Thread nD τ).loc main_arg0) (ix2 (rowAt t p) k) := by
  show V1 m ρ c main_arg0 (((cfg0.win 0).blk t).view.emb (ix2 p k)) = _
  rw [entry_feature]
  refine congrArg _ (funext fun a => Fin.ext ?_)
  obtain ⟨e0, e1, -⟩ := idx_facts t
  match a with
  | ⟨0, _⟩ => show win0_0.index t (0 : Fin 2) * 64 + 1 * p.val = 64 * t.val + p.val; omega
  | ⟨1, _⟩ => show win0_0.index t (1 : Fin 2) * 4096 + 1 * k.val = k.val; omega

theorem read_weight (c : Dev nD) (t : Fin cfg0.N) (k j : Fin 4096) :
    iblk0 (V1 m ρ) c 1 t (ix2 k j) = m ((c.tc : Thread nD τ).loc main_arg3) (ix2 j k) := by
  have e : ((cfg0.win 1).blk t).view.emb (ix2 k j) = (ix2 k j : S4096x4096.Idx) := by
    obtain ⟨-, -, e2, e3, -⟩ := idx_facts t
    refine funext fun a => Fin.ext ?_
    match a with
    | ⟨0, _⟩ => show win0_1.index t (0 : Fin 2) * 4096 + 1 * k.val = k.val; omega
    | ⟨1, _⟩ => show win0_1.index t (1 : Fin 2) * 4096 + 1 * j.val = j.val; omega
  show V1 m ρ c main_v1 (((cfg0.win 1).blk t).view.emb (ix2 k j)) = _
  rw [e, entry_weight]
  exact transpose_ix2_apply _ _ k j

theorem read_bias (c : Dev nD) (t : Fin cfg0.N) (j : Fin 4096) :
    iblk0 (V1 m ρ) c 2 t (ix2 (0 : Fin 1) j) = m ((c.tc : Thread nD τ).loc main_arg4) (ix1 j) := by
  have e : ((cfg0.win 2).blk t).view.emb (ix2 (0 : Fin 1) j) = (ix2 (0 : Fin 1) j : S1x4096.Idx) := by
    obtain ⟨-, -, -, -, e4, e5, -⟩ := idx_facts t
    refine funext fun a => Fin.ext ?_
    match a with
    | ⟨0, _⟩ => show win0_2.index t (0 : Fin 2) * 1 + 1 * 0 = 0; omega
    | ⟨1, _⟩ => show win0_2.index t (1 : Fin 2) * 4096 + 1 * j.val = j.val; omega
  show V1 m ρ c main_v4 (((cfg0.win 2).blk t).view.emb (ix2 (0 : Fin 1) j)) = _
  rw [e, entry_bias]
  exact shapeCast_apply (s := S4096) (t := S1x4096) _ shapeCasts_S4096_S1x4096 (ix2 (0 : Fin 1) j) (ix1 j) (by
    rw [Shape.rowMajor_val_one, Shape.rowMajor_val_two]
    show j.val = 0 * 4096 + j.val
    omega)

theorem read_table (c : Dev nD) (t : Fin cfg0.N) (j : Fin 4096) (a : Fin 14) :
    iblk0 (V1 m ρ) c 3 t (ix2 j a) = V1 m ρ c main_v15 (ix2 j a) := by
  have e : ((cfg0.win 3).blk t).view.emb (ix2 j a) = (ix2 j a : S4096x14.Idx) := by
    obtain ⟨-, -, -, -, -, -, e6, e7, -⟩ := idx_facts t
    refine funext fun d => Fin.ext ?_
    match d with
    | ⟨0, _⟩ => show win0_3.index t (0 : Fin 2) * 4096 + 1 * j.val = j.val; omega
    | ⟨1, _⟩ => show win0_3.index t (1 : Fin 2) * 14 + 1 * a.val = a.val; omega
  show V1 m ρ c main_v15 (((cfg0.win 3).blk t).view.emb (ix2 j a)) = _
  rw [e]

/-! ## What a point writes, and the array after the region -/

/-- The body's stored block at point `t`, entry `(p, a)`, for any blocks that read the arrays as above: the similarity of batch
    row `64 t + p` with prototype `a`. -/
theorem block_value (c : Dev nD) (t : Fin cfg0.N) (x0 : Vec Ideal S64x4096 .f32) (x1 : Vec Ideal S4096x4096 .bf16)
    (x2 : Vec Ideal S1x4096 .f32) (x3 : Vec Ideal S4096x14 .bf16)
    (h0 : ∀ (p : Fin 64) (k : Fin 4096), x0 (ix2 p k) = m ((c.tc : Thread nD τ).loc main_arg0) (ix2 (rowAt t p) k))
    (h1 : ∀ k j : Fin 4096, x1 (ix2 k j) = m ((c.tc : Thread nD τ).loc main_arg3) (ix2 j k))
    (h2 : ∀ j : Fin 4096, x2 (ix2 (0 : Fin 1) j) = m ((c.tc : Thread nD τ).loc main_arg4) (ix1 j))
    (h3 : ∀ (j : Fin 4096) (a : Fin 14), x3 (ix2 j a) = V1 m ρ c main_v15 (ix2 j a))
    (p : Fin 64) (a : Fin 14) :
    k0_pay1 (F := Ideal) x0 x1 x2 x3 (ix2 p a) = G m ρ c (ix2 (rowAt t p) a) := by
  rw [BodyValue.similarity_payload]
  unfold G
  rw [similarityArr_ix2]
  unfold rowOf weightOf biasOf tableOf
  simp only [h0, h1, h2, h3]

/-- What point `t` writes back is block `t` of the array `G`. -/
theorem flushed_eq (c : Dev nD) (t : Fin cfg0.N) :
    (dat0 (V1 m ρ) c).flushed 4 t = ((cfg0.win 4).blk t).view.read (Elt Ideal) (G m ρ c) := by
  show (cfg0.win 4).cut (grid0.coords t) ((dat0 (V1 m ρ) c).after 4 t) = _
  rw [after0_4]
  unfold out0_4
  rw [View.canon_unit_zero hz]
  simp only [View.ld_unit_zero (S := S64x4096) hz, View.ld_unit_zero (S := S4096x4096) hz, View.ld_unit_zero (S := S1x4096) hz, View.ld_unit_zero (S := S4096x14) hz]
  funext y
  obtain ⟨p, a, rfl⟩ : ∃ (p : Fin 64) (a : Fin 14), y = ix2 p a := ⟨y 0, y 1, eq_ix2 y⟩
  have e : ((cfg0.win 4).blk t).view.emb (ix2 p a) = (ix2 (rowAt t p) a : S16384x14.Idx) := by
    obtain ⟨-, -, -, -, -, -, -, -, e8, e9⟩ := idx_facts t
    refine funext fun d => Fin.ext ?_
    match d with
    | ⟨0, _⟩ => show win0_4.index t (0 : Fin 2) * 64 + 1 * p.val = 64 * t.val + p.val; omega
    | ⟨1, _⟩ => show win0_4.index t (1 : Fin 2) * 14 + 1 * a.val = a.val; omega
  show k0_pay1 (F := Ideal) (iblk0 (V1 m ρ) c 0 t) (iblk0 (V1 m ρ) c 1 t) (iblk0 (V1 m ρ) c 2 t) (iblk0 (V1 m ρ) c 3 t) (ix2 p a)
    = G m ρ c (((cfg0.win 4).blk t).view.emb (ix2 p a))
  rw [e]
  exact block_value m ρ c t (iblk0 (V1 m ρ) c 0 t) (iblk0 (V1 m ρ) c 1 t) (iblk0 (V1 m ρ) c 2 t) (iblk0 (V1 m ρ) c 3 t)
    (read_feature m ρ c t) (read_weight m ρ c t) (read_bias m ρ c t) (read_table m ρ c t) p a

/-- An index of the output array is in point `t`'s block iff each coordinate is in the block's range on its axis. -/
theorem mem_blk (t : Fin cfg0.N) (i : S16384x14.Idx) :
    i ∈ ((cfg0.win 4).blk t).view.set ↔ ∀ a : Fin 2, win0_4.index t a * S64x14.size a ≤ (i a).val ∧ (i a).val < win0_4.index t a * S64x14.size a + S64x14.size a := by
  show i ∈ ((View.whole main_v16).slice (win0_4.rect t)).set ↔ _
  rw [View.set_slice_whole, Rect.mem_set_unit]
  exact Iff.rfl

/-- Every index of the output array is in the block of the point its row falls in, `row / 64`. -/
theorem cover (i : S16384x14.Idx) : ∃ t : Fin cfg0.N, (cfg0.win 4).flush t = true ∧ i ∈ ((cfg0.win 4).blk t).view.set := by
  have hi0 : (i 0).val < 16384 := (i 0).isLt
  have hi1 : (i 1).val < 14 := (i 1).isLt
  let t : Fin cfg0.N := ⟨(i 0).val / 64, by rw [show cfg0.N = 256 from N_0]; omega⟩
  refine ⟨t, flush0_4 t, ?_⟩
  rw [mem_blk]
  obtain ⟨-, -, -, -, -, -, -, -, e8, e9⟩ := idx_facts t
  have ht : t.val = (i 0).val / 64 := rfl
  intro a
  match a with
  | ⟨0, _⟩ => show win0_4.index t (0 : Fin 2) * 64 ≤ (i 0).val ∧ (i 0).val < win0_4.index t (0 : Fin 2) * 64 + 64; omega
  | ⟨1, _⟩ => show win0_4.index t (1 : Fin 2) * 14 ≤ (i 1).val ∧ (i 1).val < win0_4.index t (1 : Fin 2) * 14 + 14; omega

/-- The first region's output array after the region: every image row's similarity with every prototype. -/
theorem final (c : Dev nD) : (dat0 (V1 m ρ) c).arrAt 4 cfg0.N = G m ρ c :=
  (dat0 (V1 m ρ) c).arrAt_eq_of_cover 4 (G m ρ c) (fun t _ => flushed_eq m ρ c t) cover

end Cert.KernelIdeal.ImageRegion

end
-- ==== Proof.TextRegion.lean ====
/-
  The second region, read as a value. Point `t` of its 256 reads rows `64 t … 64 t + 63` of the text features, of the
  first region's similarity array and of the labels, together with the whole transposed text weight, the bias row and the
  prototype table, and writes rows `64 t … 64 t + 63` of the result. Every entry it writes is the mean of the two paths'
  similarities for one batch row and one prototype, times that row's label: again the blocks are restrictions of ONE
  array and they tile the rows.
-/
import proofs.«408333_j34445637714521_3_alg».proof.Proof.Gen.KernelIdeal.Frame
import proofs.«408333_j34445637714521_3_alg».proof.Proof.RowSpec
import proofs.«408333_j34445637714521_3_alg».proof.Proof.BodyValue
import proofs.«408333_j34445637714521_3_alg».proof.Proof.ImageRegion
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.TextRegion

open Cert.KernelIdeal Cert.KernelIdeal.Gen Idealize.ShloMosaic Idealize.ShloMosaic.TcCoe Idealize.SL.Sem Idealize.ShloMosaic.StableHlo Idealize.ShloMosaic.ValueIdx Cert.RowSpec
open Idealize.ShloMosaic.Pipeline (Dat Cfg Window)

variable (m : (ℓ : Loc nD τ sig) → Buf (Elt Ideal) ℓ) (ρ : Dev nD → PrngReg)

theorem hz : (![0, 0] : Fin 2 → Nat) = fun _ => 0 := funext fun a => by fin_cases a <;> rfl

/-- The block each window is on at point `t`: the text features, the first path's similarities, the labels and the output move
    down the rows with the point; the weight, bias and table windows stay on their one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- Row `64 t + p` of the batch: row `p` of block `t`. -/
def rowAt (t : Fin cfg1.N) (p : Fin 64) : Fin 16384 :=
  ⟨64 * t.val + p.val, by have := lt_of_lt_of_eq t.isLt N_1; have := p.isLt; omega⟩

/-- The array the region leaves: for every batch row and prototype, the mean of the image path's similarity (the first region's
    array) and the text path's, times the label as a number. -/
def G (c : Dev nD) : S16384x14.Idx → EReal :=
  maskedMeanArr (ImageRegion.G m ρ c) (similarityArr (m ((c.tc : Thread nD τ).loc main_arg1)) (m ((c.tc : Thread nD τ).loc main_arg5)) (m ((c.tc : Thread nD τ).loc main_arg6)) (V1 m ρ c main_v15))
    (fun i => FloatOps.sitofp (F := Ideal) .f32 (m ((c.tc : Thread nD τ).loc main_arg2) i))

/-! ## What the region finds in its operands: the first region wrote only its own output array -/

theorem entry_feature (c : Dev nD) : V2 m ρ c main_arg1 = m ((c.tc : Thread nD τ).loc main_arg1) := by
  show W2 m ρ c (Proc.devRef .tc main_arg1) = _
  rw [W2_of_ne m ρ c main_arg1 (by decide)]
  show StableHlo.after hostOps0 (W0 m ρ c) (Proc.devRef .tc main_arg1) = _
  after_results <;> rfl

theorem entry_labels (c : Dev nD) : V2 m ρ c main_arg2 = m ((c.tc : Thread nD τ).loc main_arg2) := by
  show W2 m ρ c (Proc.devRef .tc main_arg2) = _
  rw [W2_of_ne m ρ c main_arg2 (by decide)]
  show StableHlo.after hostOps0 (W0 m ρ c) (Proc.devRef .tc main_arg2) = _
  after_results <;> rfl

/-- The weight operand is the text weight transposed. -/
theorem entry_weight (c : Dev nD) :
    (V2 m ρ c main_v3 : S4096x4096.Idx → EReal) = truncf (F := Ideal) .bf16 (transpose S4096x4096 [1, 0] (m ((c.tc : Thread nD τ).loc main_arg5)) transposes_S4096x4096_S4096x4096_1_0) bitsLt_bf16_f32 := by
  show W2 m ρ c (Proc.devRef .tc main_v3) = _
  rw [W2_of_ne m ρ c main_v3 (by decide)]
  show StableHlo.after hostOps0 (W0 m ρ c) (Proc.devRef .tc main_v3) = _
  after_results <;> rfl

/-- The bias operand is the text bias as one row. -/
theorem entry_bias (c : Dev nD) :
    (V2 m ρ c main_v5 : S1x4096.Idx → EReal) = shapeCast S1x4096 (m ((c.tc : Thread nD τ).loc main_arg6)) shapeCasts_S4096_S1x4096 := by
  show W2 m ρ c (Proc.devRef .tc main_v5) = _
  rw [W2_of_ne m ρ c main_v5 (by decide)]
  show StableHlo.after hostOps0 (W0 m ρ c) (Proc.devRef .tc main_v5) = _
  after_results <;> rfl

/-- The prototype table is the one the first region read: it was an input of that region, and an input array is never written. -/
theorem entry_table (c : Dev nD) : V2 m ρ c main_v15 = V1 m ρ c main_v15 :=
  (W2_arr m ρ c 3).trans (((dat0 (V1 m ρ) c).arrAt_in 3 rfl _).trans (A_eq0 (V1 m ρ) c 3))

/-- The first path's similarities are what the first region left. -/
theorem entry_image (c : Dev nD) : V2 m ρ c main_v16 = ImageRegion.G m ρ c :=
  (W2_arr m ρ c 4).trans (ImageRegion.final m ρ c)

/-! ## The blocks at a point, entry by entry -/

theorem read_feature (c : Dev nD) (t : Fin cfg1.N) (p : Fin 64) (k : Fin 4096) :
    iblk1 (V2 m ρ) c 0 t (ix2 p k) = m ((c.tc : Thread nD τ).loc main_arg1) (ix2 (rowAt t p) k) := by
  show V2 m ρ c main_arg1 (((cfg1.win 0).blk t).view.emb (ix2 p k)) = _
  rw [entry_feature]
  refine congrArg _ (funext fun a => Fin.ext ?_)
  obtain ⟨e0, e1, -⟩ := idx_facts t
  match a with
  | ⟨0, _⟩ => show win1_0.index t (0 : Fin 2) * 64 + 1 * p.val = 64 * t.val + p.val; omega
  | ⟨1, _⟩ => show win1_0.index t (1 : Fin 2) * 4096 + 1 * k.val = k.val; omega

theorem read_weight (c : Dev nD) (t : Fin cfg1.N) (k j : Fin 4096) :
    iblk1 (V2 m ρ) c 1 t (ix2 k j) = m ((c.tc : Thread nD τ).loc main_arg5) (ix2 j k) := by
  have e : ((cfg1.win 1).blk t).view.emb (ix2 k j) = (ix2 k j : S4096x4096.Idx) := by
    obtain ⟨-, -, e2, e3, -⟩ := idx_facts t
    refine funext fun a => Fin.ext ?_
    match a with
    | ⟨0, _⟩ => show win1_1.index t (0 : Fin 2) * 4096 + 1 * k.val = k.val; omega
    | ⟨1, _⟩ => show win1_1.index t (1 : Fin 2) * 4096 + 1 * j.val = j.val; omega
  show V2 m ρ c main_v3 (((cfg1.win 1).blk t).view.emb (ix2 k j)) = _
  rw [e, entry_weight]
  exact transpose_ix2_apply _ _ k j

theorem read_bias (c : Dev nD) (t : Fin cfg1.N) (j : Fin 4096) :
    iblk1 (V2 m ρ) c 2 t (ix2 (0 : Fin 1) j) = m ((c.tc : Thread nD τ).loc main_arg6) (ix1 j) := by
  have e : ((cfg1.win 2).blk t).view.emb (ix2 (0 : Fin 1) j) = (ix2 (0 : Fin 1) j : S1x4096.Idx) := by
    obtain ⟨-, -, -, -, e4, e5, -⟩ := idx_facts t
    refine funext fun a => Fin.ext ?_
    match a with
    | ⟨0, _⟩ => show win1_2.index t (0 : Fin 2) * 1 + 1 * 0 = 0; omega
    | ⟨1, _⟩ => show win1_2.index t (1 : Fin 2) * 4096 + 1 * j.val = j.val; omega
  show V2 m ρ c main_v5 (((cfg1.win 2).blk t).view.emb (ix2 (0 : Fin 1) j)) = _
  rw [e, entry_bias]
  exact shapeCast_apply (s := S4096) (t := S1x4096) _ shapeCasts_S4096_S1x4096 (ix2 (0 : Fin 1) j) (ix1 j) (by
    rw [Shape.rowMajor_val_one, Shape.rowMajor_val_two]
    show j.val = 0 * 4096 + j.val
    omega)

theorem read_table (c : Dev nD) (t : Fin cfg1.N) (j : Fin 4096) (a : Fin 14) :
    iblk1 (V2 m ρ) c 3 t (ix2 j a) = V1 m ρ c main_v15 (ix2 j a) := by
  have e : ((cfg1.win 3).blk t).view.emb (ix2 j a) = (ix2 j a : S4096x14.Idx) := by
    obtain ⟨-, -, -, -, -, -, e6, e7, -⟩ := idx_facts t
    refine funext fun d => Fin.ext ?_
    match d with
    | ⟨0, _⟩ => show win1_3.index t (0 : Fin 2) * 4096 + 1 * j.val = j.val; omega
    | ⟨1, _⟩ => show win1_3.index t (1 : Fin 2) * 14 + 1 * a.val = a.val; omega
  show V2 m ρ c main_v15 (((cfg1.win 3).blk t).view.emb (ix2 j a)) = _
  rw [e, entry_table]

theorem read_image (c : Dev nD) (t : Fin cfg1.N) (p : Fin 64) (a : Fin 14) :
    iblk1 (V2 m ρ) c 4 t (ix2 p a) = ImageRegion.G m ρ c (ix2 (rowAt t p) a) := by
  show V2 m ρ c main_v16 (((cfg1.win 4).blk t).view.emb (ix2 p a)) = _
  rw [entry_image]
  refine congrArg _ (funext fun d => Fin.ext ?_)
  obtain ⟨-, -, -, -, -, -, -, -, e8, e9, -⟩ := idx_facts t
  match d with
  | ⟨0, _⟩ => show win1_4.index t (0 : Fin 2) * 64 + 1 * p.val = 64 * t.val + p.val; omega
  | ⟨1, _⟩ => show win1_4.index t (1 : Fin 2) * 14 + 1 * a.val = a.val; omega

theorem read_labels (c : Dev nD) (t : Fin cfg1.N) (p : Fin 64) (a : Fin 14) :
    iblk1 (V2 m ρ) c 5 t (ix2 p a) = m ((c.tc : Thread nD τ).loc main_arg2) (ix2 (rowAt t p) a) := by
  show V2 m ρ c main_arg2 (((cfg1.win 5).blk t).view.emb (ix2 p a)) = _
  rw [entry_labels]
  refine congrArg _ (funext fun d => Fin.ext ?_)
  obtain ⟨-, -, -, -, -, -, -, -, -, -, e10, e11, -⟩ := idx_facts t
  match d with
  | ⟨0, _⟩ => show win1_5.index t (0 : Fin 2) * 64 + 1 * p.val = 64 * t.val + p.val; omega
  | ⟨1, _⟩ => show win1_5.index t (1 : Fin 2) * 14 + 1 * a.val = a.val; omega

/-! ## What a point writes, and the array after the region -/

/-- The body's stored block at point `t`, entry `(p, a)`, for any blocks that read the arrays as above. -/
theorem block_value (c : Dev nD) (t : Fin cfg1.N) (x0 : Vec Ideal S64x4096 .f32) (x1 : Vec Ideal S4096x4096 .bf16)
    (x2 : Vec Ideal S1x4096 .f32) (x3 : Vec Ideal S4096x14 .bf16) (x4 : Vec Ideal S64x14 .f32) (x5 : Vec Ideal S64x14 .i32)
    (h0 : ∀ (p : Fin 64) (k : Fin 4096), x0 (ix2 p k) = m ((c.tc : Thread nD τ).loc main_arg1) (ix2 (rowAt t p) k))
    (h1 : ∀ k j : Fin 4096, x1 (ix2 k j) = m ((c.tc : Thread nD τ).loc main_arg5) (ix2 j k))
    (h2 : ∀ j : Fin 4096, x2 (ix2 (0 : Fin 1) j) = m ((c.tc : Thread nD τ).loc main_arg6) (ix1 j))
    (h3 : ∀ (j : Fin 4096) (a : Fin 14), x3 (ix2 j a) = V1 m ρ c main_v15 (ix2 j a))
    (h4 : ∀ (p : Fin 64) (a : Fin 14), x4 (ix2 p a) = ImageRegion.G m ρ c (ix2 (rowAt t p) a))
    (h5 : ∀ (p : Fin 64) (a : Fin 14), x5 (ix2 p a) = m ((c.tc : Thread nD τ).loc main_arg2) (ix2 (rowAt t p) a))
    (p : Fin 64) (a : Fin 14) :
    k1_pay1 (F := Ideal) x0 x1 x2 x3 x5 x4 (ix2 p a) = G m ρ c (ix2 (rowAt t p) a) := by
  rw [BodyValue.maskedMean_payload]
  show _ = maskedMean (ImageRegion.G m ρ c (ix2 (rowAt t p) a))
      (similarityArr (m ((c.tc : Thread nD τ).loc main_arg1)) (m ((c.tc : Thread nD τ).loc main_arg5)) (m ((c.tc : Thread nD τ).loc main_arg6)) (V1 m ρ c main_v15) (ix2 (rowAt t p) a))
      (FloatOps.sitofp (F := Ideal) .f32 (m ((c.tc : Thread nD τ).loc main_arg2) (ix2 (rowAt t p) a)))
  rw [similarityArr_ix2]
  unfold rowOf weightOf biasOf tableOf
  simp only [h0, h1, h2, h3, h4, h5]

/-- What point `t` writes back is block `t` of the array `G`. -/
theorem flushed_eq (c : Dev nD) (t : Fin cfg1.N) :
    (dat1 (V2 m ρ) c).flushed 6 t = ((cfg1.win 6).blk t).view.read (Elt Ideal) (G m ρ c) := by
  show (cfg1.win 6).cut (grid1.coords t) ((dat1 (V2 m ρ) c).after 6 t) = _
  rw [after1_6]
  unfold out1_6
  rw [View.canon_unit_zero hz]
  simp only [View.ld_unit_zero (S := S64x4096) hz, View.ld_unit_zero (S := S4096x4096) hz, View.ld_unit_zero (S := S1x4096) hz, View.ld_unit_zero (S := S4096x14) hz, View.ld_unit_zero (S := S64x14) hz]
  funext y
  obtain ⟨p, a, rfl⟩ : ∃ (p : Fin 64) (a : Fin 14), y = ix2 p a := ⟨y 0, y 1, eq_ix2 y⟩
  have e : ((cfg1.win 6).blk t).view.emb (ix2 p a) = (ix2 (rowAt t p) a : S16384x14.Idx) := by
    obtain ⟨-, -, -, -, -, -, -, -, -, -, -, -, e12, e13⟩ := idx_facts t
    refine funext fun d => Fin.ext ?_
    match d with
    | ⟨0, _⟩ => show win1_6.index t (0 : Fin 2) * 64 + 1 * p.val = 64 * t.val + p.val; omega
    | ⟨1, _⟩ => show win1_6.index t (1 : Fin 2) * 14 + 1 * a.val = a.val; omega
  show k1_pay1 (F := Ideal) (iblk1 (V2 m ρ) c 0 t) (iblk1 (V2 m ρ) c 1 t) (iblk1 (V2 m ρ) c 2 t) (iblk1 (V2 m ρ) c 3 t)
      (iblk1 (V2 m ρ) c 5 t) (iblk1 (V2 m ρ) c 4 t) (ix2 p a)
    = G m ρ c (((cfg1.win 6).blk t).view.emb (ix2 p a))
  rw [e]
  exact block_value m ρ c t (iblk1 (V2 m ρ) c 0 t) (iblk1 (V2 m ρ) c 1 t) (iblk1 (V2 m ρ) c 2 t) (iblk1 (V2 m ρ) c 3 t)
    (iblk1 (V2 m ρ) c 4 t) (iblk1 (V2 m ρ) c 5 t)
    (read_feature m ρ c t) (read_weight m ρ c t) (read_bias m ρ c t) (read_table m ρ c t) (read_image m ρ c t) (read_labels m ρ c t) p a

/-- An index of the output array is in point `t`'s block iff each coordinate is in the block's range on its axis. -/
theorem mem_blk (t : Fin cfg1.N) (i : S16384x14.Idx) :
    i ∈ ((cfg1.win 6).blk t).view.set ↔ ∀ a : Fin 2, win1_6.index t a * S64x14.size a ≤ (i a).val ∧ (i a).val < win1_6.index t a * S64x14.size a + S64x14.size a := by
  show i ∈ ((View.whole main_v17).slice (win1_6.rect t)).set ↔ _
  rw [View.set_slice_whole, Rect.mem_set_unit]
  exact Iff.rfl

/-- Every index of the output array is in the block of the point its row falls in, `row / 64`. -/
theorem cover (i : S16384x14.Idx) : ∃ t : Fin cfg1.N, (cfg1.win 6).flush t = true ∧ i ∈ ((cfg1.win 6).blk t).view.set := by
  have hi0 : (i 0).val < 16384 := (i 0).isLt
  have hi1 : (i 1).val < 14 := (i 1).isLt
  let t : Fin cfg1.N := ⟨(i 0).val / 64, by rw [show cfg1.N = 256 from N_1]; omega⟩
  refine ⟨t, flush1_6 t, ?_⟩
  rw [mem_blk]
  obtain ⟨-, -, -, -, -, -, -, -, -, -, -, -, e12, e13⟩ := idx_facts t
  have ht : t.val = (i 0).val / 64 := rfl
  intro a
  match a with
  | ⟨0, _⟩ => show win1_6.index t (0 : Fin 2) * 64 ≤ (i 0).val ∧ (i 0).val < win1_6.index t (0 : Fin 2) * 64 + 64; omega
  | ⟨1, _⟩ => show win1_6.index t (1 : Fin 2) * 14 ≤ (i 1).val ∧ (i 1).val < win1_6.index t (1 : Fin 2) * 14 + 14; omega

/-- The second region's output array after the region: the masked mean of the two paths' similarities. -/
theorem final (c : Dev nD) : (dat1 (V2 m ρ) c).arrAt 6 cfg1.N = G m ρ c :=
  (dat1 (V2 m ρ) c).arrAt_eq_of_cover 6 (G m ρ c) (fun t _ => flushed_eq m ρ c t) cover

end Cert.KernelIdeal.TextRegion

end
-- ==== Proof.HostValue.lean ====
/-
  The host operations around the two regions, read as values over the launch memory.

  Before the regions the kernel's program normalizes the prototypes and transposes them, by the very operations the reference
  uses (a change of float format on top, the identity on extended reals): the table both regions read is the reference's
  transposed-normalized-prototypes stage. After the regions it computes the loss from the labels and the co-occurrence
  matrix, again by the reference's operations: neither region wrote those two arrays, so the loss is the reference's stage
  of the launch contents. And the last stretch does not write the second region's output, which therefore ends as that
  region left it.
-/
import proofs.«408333_j34445637714521_3_alg».proof.Proof.Gen.KernelIdeal.Frame
import proofs.«408333_j34445637714521_3_alg».proof.Proof.Gen.ReferenceIdeal.Read
import proofs.«408333_j34445637714521_3_alg».proof.Proof.TextRegion
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- The prototype table the regions read is the reference's stage: the prototypes, each divided by its clamped length,
    transposed. -/
theorem table_eq (c : Dev nD) :
    Cert.ReferenceIdeal.Read.val_main_v35 (F := Ideal) (m ((c.tc : Thread nD τ).loc main_arg7)) = V1 m ρ c main_v15 := by
  symm
  show StableHlo.after hostOps0 (W0 m ρ c) (Proc.devRef .tc main_v15) = _
  after_results <;> rfl

/-- The co-occurrence matrix is as launched when the last host stretch starts: nothing before it writes it. -/
theorem coocc_end (c : Dev nD) : W3 m ρ c (Proc.devRef .tc main_arg8) = m ((c.tc : Thread nD τ).loc main_arg8) :=
  (W3_of_ne m ρ c main_arg8 (by decide)).trans ((W2_of_ne m ρ c main_arg8 (by decide)).trans (by
    show StableHlo.after hostOps0 (W0 m ρ c) (Proc.devRef .tc main_arg8) = _
    after_results <;> rfl))

/-- So are the labels: the second region only reads them. -/
theorem labels_end (c : Dev nD) : W3 m ρ c (Proc.devRef .tc main_arg2) = m ((c.tc : Thread nD τ).loc main_arg2) :=
  ((W3_arr m ρ c 5).trans (((dat1 (V2 m ρ) c).arrAt_in 5 rfl _).trans (A_eq1 (V2 m ρ) c 5))).trans
    ((W2_of_ne m ρ c main_arg2 (by decide)).trans (by
      show StableHlo.after hostOps0 (W0 m ρ c) (Proc.devRef .tc main_arg2) = _
      after_results <;> rfl))

/-- The loss the last stretch computes is the reference's loss stage of the launched labels and co-occurrence matrix. -/
theorem loss_eq (c : Dev nD) :
    W4 m ρ c (Proc.devRef .tc main_v32) = Cert.ReferenceIdeal.Read.val_main_v56 (F := Ideal) (m ((c.tc : Thread nD τ).loc main_arg2)) (m ((c.tc : Thread nD τ).loc main_arg8)) := by
  show StableHlo.after hostOps2 (W3 m ρ c) (Proc.devRef .tc main_v32) = _
  after_results
  rw [labels_end, coocc_end]
  rfl

/-- The result array ends as the second region left it: the masked mean of the two paths' similarities. -/
theorem shapley_eq (c : Dev nD) : W4 m ρ c (Proc.devRef .tc main_v17) = TextRegion.G m ρ c := by
  have h : StableHlo.after hostOps2 (W3 m ρ c) (Proc.devRef .tc main_v17) = W3 m ρ c (Proc.devRef .tc main_v17) := by
    after_results <;> rfl
  exact h.trans ((W3_arr m ρ c 6).trans (TextRegion.final m ρ c))

end Cert.KernelIdeal.HostValue

end
-- ==== Proof.RefValue.lean ====
/-
  The reference's first result, stage by stage, is the specification's array: each row's two similarities averaged
  and masked by the label.
-/
import proofs.«408333_j34445637714521_3_alg».proof.Proof.Gen.ReferenceIdeal.Read
import proofs.«408333_j34445637714521_3_alg».proof.Proof.RowSpec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.RowSpec

/-! ## The generated index maps at coordinates -/

theorem idx_v1_ix2 (k j : Fin 4096) : idx_main_v1 (ix2 k j) = ix2 j k :=
  funext fun d => Fin.ext (by match d with | ⟨0, _⟩ => rfl | ⟨1, _⟩ => rfl)
theorem lidx_v2_ix2 (r : Fin 16384) (j k : Fin 4096) : lidx_main_v2 (ix2 r j) k = ix2 r k :=
  funext fun d => Fin.ext (by match d with | ⟨0, _⟩ => rfl | ⟨1, _⟩ => rfl)
theorem ridx_v2_ix2 (r : Fin 16384) (j k : Fin 4096) : ridx_main_v2 (ix2 r j) k = ix2 k j :=
  funext fun d => Fin.ext (by match d with | ⟨0, _⟩ => rfl | ⟨1, _⟩ => rfl)
theorem idx_v3_v4_ix2 (r : Fin 16384) (j : Fin 4096) : idx_main_v3 (idx_main_v4 (ix2 r j)) = ix1 j :=
  funext fun d => Fin.ext (by match d with | ⟨0, _⟩ => rfl)

/-- The affine stage of the image path at row `r`, feature `j`. -/
theorem v5_ix2 (x0 : (⟨S16384x4096, .f32⟩ : BufTy).Contents (Elt Ideal)) (x3 : (⟨S4096x4096, .f32⟩ : BufTy).Contents (Elt Ideal))
    (x4 : (⟨S4096, .f32⟩ : BufTy).Contents (Elt Ideal)) (r : Fin 16384) (j : Fin 4096) :
    val_main_v5 (F := Ideal) x0 x3 x4 (ix2 r j) = affine (rowOf x0 r) (weightOf x3) (biasOf x4) j := by
  rw [val_main_v5_apply, val_main_v2_apply, val_main_v4_apply, val_main_v3_apply, idx_v3_v4_ix2]
  unfold affine rowOf weightOf biasOf
  rw [Ideal.addf_def]
  refine congrArg (· + _) (Finset.sum_congr rfl fun k _ => ?_)
  rw [val_main_v1_apply, lidx_v2_ix2, ridx_v2_ix2, idx_v1_ix2]

theorem idx_v12_ix2 (r : Fin 16384) (k : Fin 4096) : idx_main_v12 (ix2 r k) = ix2 r (0 : Fin 1) :=
  funext fun d => Fin.ext (by match d with | ⟨0, _⟩ => rfl | ⟨1, _⟩ => rfl)
theorem idx_v8_ix2 (r : Fin 16384) (z : Fin 1) : idx_main_v8 (ix2 r z) = ix1 r :=
  funext fun d => Fin.ext (by match d with | ⟨0, _⟩ => rfl)
theorem idx_v7_ix1 (r : Fin 16384) (k : Fin 4096) : idx_main_v7 (ix1 r) k = ix2 r k :=
  funext fun d => Fin.ext (by match d with | ⟨0, _⟩ => rfl | ⟨1, _⟩ => rfl)

/-- The clamped length of the image path's affine row, broadcast along the row. -/
theorem v12_ix2 (x0 : (⟨S16384x4096, .f32⟩ : BufTy).Contents (Elt Ideal)) (x3 : (⟨S4096x4096, .f32⟩ : BufTy).Contents (Elt Ideal))
    (x4 : (⟨S4096, .f32⟩ : BufTy).Contents (Elt Ideal)) (r : Fin 16384) (k : Fin 4096) :
    val_main_v12 (F := Ideal) x0 x3 x4 (ix2 r k) = clampedLength (affine (rowOf x0 r) (weightOf x3) (biasOf x4)) := by
  rw [val_main_v12_apply, idx_v12_ix2, val_main_v11_apply, val_main_v9_apply, val_main_v8_apply, idx_v8_ix2,
    val_main_v7_apply, val_main_v10_apply, val_main_cst_0_apply, val_main_cst_apply]
  unfold clampedLength
  rw [Ideal.maximumf_def, Ideal.hostUnary_sqrt_def, Ideal.ofBits_def, Ideal.ofBits_def, Ideal.ofBits_zero_f32, zero_add]
  refine congrArg (fun s => max (Ideal.sqrt s) _) (Finset.sum_congr rfl fun j _ => ?_)
  rw [idx_v7_ix1, val_main_v6_apply, v5_ix2, Ideal.mulf_def]

/-- The normalized affine row of the image path. -/
theorem v13_ix2 (x0 : (⟨S16384x4096, .f32⟩ : BufTy).Contents (Elt Ideal)) (x3 : (⟨S4096x4096, .f32⟩ : BufTy).Contents (Elt Ideal))
    (x4 : (⟨S4096, .f32⟩ : BufTy).Contents (Elt Ideal)) (r : Fin 16384) (k : Fin 4096) :
    val_main_v13 (F := Ideal) x0 x3 x4 (ix2 r k) = unitRow (affine (rowOf x0 r) (weightOf x3) (biasOf x4)) k := by
  rw [val_main_v13_apply, v5_ix2, v12_ix2, Ideal.hostDivf_def]
  rfl

theorem lidx_v36_ix2 (r : Fin 16384) (a : Fin 14) (k : Fin 4096) : lidx_main_v36 (ix2 r a) k = ix2 r k :=
  funext fun d => Fin.ext (by match d with | ⟨0, _⟩ => rfl | ⟨1, _⟩ => rfl)
theorem ridx_v36_ix2 (r : Fin 16384) (a : Fin 14) (k : Fin 4096) : ridx_main_v36 (ix2 r a) k = ix2 k a :=
  funext fun d => Fin.ext (by match d with | ⟨0, _⟩ => rfl | ⟨1, _⟩ => rfl)

/-- The image path's similarity product at row `r`, prototype `a`. -/
theorem v36_ix2 (x0 : (⟨S16384x4096, .f32⟩ : BufTy).Contents (Elt Ideal)) (x3 : (⟨S4096x4096, .f32⟩ : BufTy).Contents (Elt Ideal))
    (x4 : (⟨S4096, .f32⟩ : BufTy).Contents (Elt Ideal)) (x7 : (⟨S14x4096, .f32⟩ : BufTy).Contents (Elt Ideal)) (r : Fin 16384) (a : Fin 14) :
    val_main_v36 (F := Ideal) x0 x3 x4 x7 (ix2 r a)
      = similarity (rowOf x0 r) (weightOf x3) (biasOf x4) (tableOf (val_main_v35 (F := Ideal) x7)) a := by
  rw [val_main_v36_apply]
  generalize val_main_v35 (F := Ideal) x7 = P
  unfold similarity tableOf
  refine Finset.sum_congr rfl fun k _ => ?_
  rw [lidx_v36_ix2, ridx_v36_ix2, v13_ix2]

/-! ## The text path: the same stages under their own numbers -/

theorem idx_v14_ix2 (k j : Fin 4096) : idx_main_v14 (ix2 k j) = ix2 j k :=
  funext fun d => Fin.ext (by match d with | ⟨0, _⟩ => rfl | ⟨1, _⟩ => rfl)
theorem lidx_v15_ix2 (r : Fin 16384) (j k : Fin 4096) : lidx_main_v15 (ix2 r j) k = ix2 r k :=
  funext fun d => Fin.ext (by match d with | ⟨0, _⟩ => rfl | ⟨1, _⟩ => rfl)
theorem ridx_v15_ix2 (r : Fin 16384) (j k : Fin 4096) : ridx_main_v15 (ix2 r j) k = ix2 k j :=
  funext fun d => Fin.ext (by match d with | ⟨0, _⟩ => rfl | ⟨1, _⟩ => rfl)
theorem idx_v16_v17_ix2 (r : Fin 16384) (j : Fin 4096) : idx_main_v16 (idx_main_v17 (ix2 r j)) = ix1 j :=
  funext fun d => Fin.ext (by match d with | ⟨0, _⟩ => rfl)

/-- The affine stage of the text path at row `r`, feature `j`. -/
theorem v18_ix2 (x1 : (⟨S16384x4096, .f32⟩ : BufTy).Contents (Elt Ideal)) (x5 : (⟨S4096x4096, .f32⟩ : BufTy).Contents (Elt Ideal))
    (x6 : (⟨S4096, .f32⟩ : BufTy).Contents (Elt Ideal)) (r : Fin 16384) (j : Fin 4096) :
    val_main_v18 (F := Ideal) x1 x5 x6 (ix2 r j) = affine (rowOf x1 r) (weightOf x5) (biasOf x6) j := by
  rw [val_main_v18_apply, val_main_v15_apply, val_main_v17_apply, val_main_v16_apply, idx_v16_v17_ix2]
  unfold affine rowOf weightOf biasOf
  rw [Ideal.addf_def]
  refine congrArg (· + _) (Finset.sum_congr rfl fun k _ => ?_)
  rw [val_main_v14_apply, lidx_v15_ix2, ridx_v15_ix2, idx_v14_ix2]

theorem idx_v25_ix2 (r : Fin 16384) (k : Fin 4096) : idx_main_v25 (ix2 r k) = ix2 r (0 : Fin 1) :=
  funext fun d => Fin.ext (by match d with | ⟨0, _⟩ => rfl | ⟨1, _⟩ => rfl)
theorem idx_v21_ix2 (r : Fin 16384) (z : Fin 1) : idx_main_v21 (ix2 r z) = ix1 r :=
  funext fun d => Fin.ext (by match d with | ⟨0, _⟩ => rfl)
theorem idx_v20_ix1 (r : Fin 16384) (k : Fin 4096) : idx_main_v20 (ix1 r) k = ix2 r k :=
  funext fun d => Fin.ext (by match d with | ⟨0, _⟩ => rfl | ⟨1, _⟩ => rfl)

/-- The clamped length of the text path's affine row, broadcast along the row. -/
theorem v25_ix2 (x1 : (⟨S16384x4096, .f32⟩ : BufTy).Contents (Elt Ideal)) (x5 : (⟨S4096x4096, .f32⟩ : BufTy).Contents (Elt Ideal))
    (x6 : (⟨S4096, .f32⟩ : BufTy).Contents (Elt Ideal)) (r : Fin 16384) (k : Fin 4096) :
    val_main_v25 (F := Ideal) x1 x5 x6 (ix2 r k) = clampedLength (affine (rowOf x1 r) (weightOf x5) (biasOf x6)) := by
  rw [val_main_v25_apply, idx_v25_ix2, val_main_v24_apply, val_main_v22_apply, val_main_v21_apply, idx_v21_ix2,
    val_main_v20_apply, val_main_v23_apply, val_main_cst_2_apply, val_main_cst_1_apply]
  unfold clampedLength
  rw [Ideal.maximumf_def, Ideal.hostUnary_sqrt_def, Ideal.ofBits_def, Ideal.ofBits_def, Ideal.ofBits_zero_f32, zero_add]
  refine congrArg (fun s => max (Ideal.sqrt s) _) (Finset.sum_congr rfl fun j _ => ?_)
  rw [idx_v20_ix1, val_main_v19_apply, v18_ix2, Ideal.mulf_def]

/-- The normalized affine row of the text path. -/
theorem v26_ix2 (x1 : (⟨S16384x4096, .f32⟩ : BufTy).Contents (Elt Ideal)) (x5 : (⟨S4096x4096, .f32⟩ : BufTy).Contents (Elt Ideal))
    (x6 : (⟨S4096, .f32⟩ : BufTy).Contents (Elt Ideal)) (r : Fin 16384) (k : Fin 4096) :
    val_main_v26 (F := Ideal) x1 x5 x6 (ix2 r k) = unitRow (affine (rowOf x1 r) (weightOf x5) (biasOf x6)) k := by
  rw [val_main_v26_apply, v18_ix2, v25_ix2, Ideal.hostDivf_def]
  rfl

theorem lidx_v38_ix2 (r : Fin 16384) (a : Fin 14) (k : Fin 4096) : lidx_main_v38 (ix2 r a) k = ix2 r k :=
  funext fun d => Fin.ext (by match d with | ⟨0, _⟩ => rfl | ⟨1, _⟩ => rfl)
theorem ridx_v38_ix2 (r : Fin 16384) (a : Fin 14) (k : Fin 4096) : ridx_main_v38 (ix2 r a) k = ix2 k a :=
  funext fun d => Fin.ext (by match d with | ⟨0, _⟩ => rfl | ⟨1, _⟩ => rfl)

/-- The second transpose of the normalized prototypes is the first. -/
theorem v37_eq_v35 (x7 : (⟨S14x4096, .f32⟩ : BufTy).Contents (Elt Ideal)) :
    val_main_v37 (F := Ideal) x7 = val_main_v35 (F := Ideal) x7 := rfl

/-- The text path's similarity product at row `r`, prototype `a`. -/
theorem v38_ix2 (x1 : (⟨S16384x4096, .f32⟩ : BufTy).Contents (Elt Ideal)) (x5 : (⟨S4096x4096, .f32⟩ : BufTy).Contents (Elt Ideal))
    (x6 : (⟨S4096, .f32⟩ : BufTy).Contents (Elt Ideal)) (x7 : (⟨S14x4096, .f32⟩ : BufTy).Contents (Elt Ideal)) (r : Fin 16384) (a : Fin 14) :
    val_main_v38 (F := Ideal) x1 x5 x6 x7 (ix2 r a)
      = similarity (rowOf x1 r) (weightOf x5) (biasOf x6) (tableOf (val_main_v35 (F := Ideal) x7)) a := by
  rw [val_main_v38_apply, v37_eq_v35]
  generalize val_main_v35 (F := Ideal) x7 = P
  unfold similarity tableOf
  refine Finset.sum_congr rfl fun k _ => ?_
  rw [lidx_v38_ix2, ridx_v38_ix2, v26_ix2]

/-- The reference's `[16384, 14]` result as a function of its argument arrays: the prototype table is left as the stage
    that transposes the normalized prototypes (both programs compute it by the same host operations). -/
theorem stage_eq (x0 x1 : (⟨S16384x4096, .f32⟩ : BufTy).Contents (Elt Ideal)) (x2 : (⟨S16384x14, .i32⟩ : BufTy).Contents (Elt Ideal))
    (x3 : (⟨S4096x4096, .f32⟩ : BufTy).Contents (Elt Ideal)) (x4 : (⟨S4096, .f32⟩ : BufTy).Contents (Elt Ideal))
    (x5 : (⟨S4096x4096, .f32⟩ : BufTy).Contents (Elt Ideal)) (x6 : (⟨S4096, .f32⟩ : BufTy).Contents (Elt Ideal))
    (x7 : (⟨S14x4096, .f32⟩ : BufTy).Contents (Elt Ideal)) :
    val_main_v42 (F := Ideal) x0 x1 x2 x3 x4 x5 x6 x7
      = maskedMeanArr (similarityArr x0 x3 x4 (val_main_v35 (F := Ideal) x7)) (similarityArr x1 x5 x6 (val_main_v35 (F := Ideal) x7))
          (fun i => FloatOps.sitofp (F := Ideal) .f32 (x2 i)) := by
  funext i
  obtain ⟨r, a, rfl⟩ : ∃ (r : Fin 16384) (a : Fin 14), i = ix2 r a := ⟨i 0, i 1, eq_ix2 i⟩
  unfold maskedMeanArr maskedMean
  rw [similarityArr_ix2, similarityArr_ix2, val_main_v42_apply, val_main_v41_apply, val_main_v40_apply, val_main_cst_5_apply,
    val_main_v39_apply, val_main_v0_apply, v36_ix2, v38_ix2, Ideal.mulf_def, Ideal.mulf_def, Ideal.addf_def, Ideal.ofBits_def]

end Cert.ReferenceIdeal.RefValue

end
-- ==== Proof.lean ====
/-
  The kernel and its reference compute, for every batch row `r` and prototype `a`,

      (½ · (s_image r a + s_text r a)) · label r a,     s x a = ∑ j, u j · p j a,   u = y / max ‖y‖ ε,   y = x · Wᵀ + b,

  the prototypes `p` normalized the same way, together with the prototypes unchanged and a scalar loss that both programs
  compute by the same host operations from the labels and the co-occurrence matrix. On the extended reals the two programs
  differ only in tiling (the kernel walks the batch in 256 blocks of 64 rows, in two regions, the second reading what the
  first wrote), in the order of the sums, and in changes of float format, which are the identity there. No law used here needs
  finiteness: sums are only re-indexed, never distributed over.

  The pieces: `RowSpec` states the row-level mathematics; `BodyValue` reads the two kernel bodies' stored blocks at an
  entry; `ImageRegion` and `TextRegion` show each region leaves ONE array (its blocks tile the rows); `HostValue` reads
  the host operations around the regions; `RefValue` reads the reference stage by stage; `KernelIdealRun` is the kernel's
  run with its results named. Here the five claims are assembled.
-/
import proofs.«408333_j34445637714521_3_alg».proof.Defs
import proofs.«408333_j34445637714521_3_alg».proof.Proof.Gen.Kernel
import proofs.«408333_j34445637714521_3_alg».proof.Proof.Gen.Kernel.Skeleton
import proofs.«408333_j34445637714521_3_alg».proof.Proof.Gen.Kernel.Launch
import proofs.«408333_j34445637714521_3_alg».proof.Proof.Gen.Kernel.Points
import proofs.«408333_j34445637714521_3_alg».proof.Proof.Gen.Kernel.Frame
import proofs.«408333_j34445637714521_3_alg».proof.Proof.Gen.KernelIdeal
import proofs.«408333_j34445637714521_3_alg».proof.Proof.Gen.KernelIdeal.Skeleton
import proofs.«408333_j34445637714521_3_alg».proof.Proof.Gen.KernelIdeal.Launch
import proofs.«408333_j34445637714521_3_alg».proof.Proof.Gen.KernelIdeal.Points
import proofs.«408333_j34445637714521_3_alg».proof.Proof.Gen.KernelIdeal.Frame
import proofs.«408333_j34445637714521_3_alg».proof.Proof.Gen.ReferenceIdeal
import proofs.«408333_j34445637714521_3_alg».proof.Proof.Gen.Pre_finite_inputs
import proofs.«408333_j34445637714521_3_alg».proof.Proof.Gen.ReferenceIdeal.Run
import proofs.«408333_j34445637714521_3_alg».proof.Proof.Gen.ReferenceIdeal.Read
import proofs.«408333_j34445637714521_3_alg».proof.Proof.KernelIdealRun
import proofs.«408333_j34445637714521_3_alg».proof.Proof.TextRegion
import proofs.«408333_j34445637714521_3_alg».proof.Proof.HostValue
import proofs.«408333_j34445637714521_3_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- From memories that agree on the arguments both programs end with the masked mean of the two similarity arrays, the
    prototypes as given, and the same loss. -/
theorem algebraic : Cert.algebraic_KernelIdeal_ReferenceIdeal := by
  intro m ρ m' ρ' _ hagree
  refine ⟨fun c => Cert.KernelIdeal.TextRegion.G m ρ c,
    fun c => m ((c.tc : Thread Cert.KernelIdeal.nD Cert.KernelIdeal.τ).loc Cert.KernelIdeal.main_arg7),
    fun c => Cert.KernelIdeal.Gen.W4 m ρ c (Proc.devRef .tc Cert.KernelIdeal.main_v32), ?_, ?_⟩
  · refine (θ_run Cert.KernelIdeal.defs _ _).mono (fun r h c => ?_) (Cert.KernelIdeal.Results.run_results m ρ)
    obtain ⟨h17, h7, h32, hargs⟩ := h c
    exact ⟨h17.trans (Cert.KernelIdeal.HostValue.shapley_eq m ρ c), h7, h32, hargs⟩
  · refine (θ_run Cert.ReferenceIdeal.defs _ _).mono (fun r h c => ?_) (Cert.ReferenceIdeal.Value.run (F := Ideal) m' ρ')
    obtain ⟨h42, h7, h56, hargs⟩ := h c
    obtain ⟨a0, a1, a2, a3, a4, a5, a6, a7, a8⟩ := hagree c
    refine ⟨h42.trans ?_, h7.trans a7, h56.trans ?_, hargs⟩
    · rw [Cert.ReferenceIdeal.Read.val_main_v42_eq, Cert.ReferenceIdeal.RefValue.stage_eq, a0, a1, a2, a3, a4, a5, a6, a7,
        Cert.KernelIdeal.HostValue.table_eq m ρ c]
      rfl
    · rw [Cert.ReferenceIdeal.Read.val_main_v56_eq, a2, a8]
      exact (Cert.KernelIdeal.HostValue.loss_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
